-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_1)) (v1 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_1) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4x1024x1024 : Shape := ⟨3, ![4, 1024, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x4096x1024 .f32) (main_arg1 : FVec F S4x1024x1024 .f32) (main_arg2 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x1024x1024 .f32 := Host.absf main_arg1
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x4096x1024 : Shape := ⟨3, ![4, 4096, 1024]⟩
abbrev S4x1024x1024 : Shape := ⟨3, ![4, 1024, 1024]⟩
abbrev S1024x1024 : Shape := ⟨2, ![1024, 1024]⟩
abbrev S16384x1024 : Shape := ⟨2, ![16384, 1024]⟩
abbrev S4x8x1024x4096 : Shape := ⟨4, ![4, 8, 1024, 4096]⟩
abbrev S1x256x128 : Shape := ⟨3, ![1, 256, 128]⟩
abbrev S1x4096x128 : Shape := ⟨3, ![1, 4096, 128]⟩
abbrev S1x1x256x4096 : Shape := ⟨4, ![1, 1, 256, 4096]⟩
abbrev S256x128 : Shape := ⟨2, ![256, 128]⟩
abbrev S4096x128 : Shape := ⟨2, ![4096, 128]⟩
abbrev S256x4096 : Shape := ⟨2, ![256, 4096]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S16384x1024, .f32⟩
  | .hbm, ⟨6, _⟩ => ⟨S16384x1024, .bf16⟩
  | .hbm, ⟨7, _⟩ => ⟨S4x4096x1024, .bf16⟩
  | .hbm, ⟨8, _⟩ => ⟨S4x8x1024x4096, .f32⟩
  | .hbm, ⟨9, _⟩ => ⟨S4x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x256x128, .f32⟩
  | .local _ .vmem, ⟨6, _⟩ => ⟨S1x256x128, .f32⟩
  | .local _ .vmem, ⟨7, _⟩ => ⟨S1x4096x128, .bf16⟩
  | .local _ .vmem, ⟨8, _⟩ => ⟨S1x4096x128, .bf16⟩
  | .local _ .vmem, ⟨9, _⟩ => ⟨S1x1x256x4096, .f32⟩
  | .local _ .vmem, ⟨10, _⟩ => ⟨S1x1x256x4096, .f32⟩
  | .local _ .vmem, ⟨11, _⟩ => ⟨S1x256x128, .f32⟩
  | .local _ .vmem, ⟨12, _⟩ => ⟨S1x256x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  transposes_S1024x1024_S1024x1024_1_0 : S1024x1024.Transposes [1, 0] S1024x1024
  bitsLt_bf16_f32 : FTy.bits .bf16 < FTy.bits .f32
  shapeCasts_S4x4096x1024_S16384x1024 : S4x4096x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S16384x1024_S4x4096x1024 : S16384x1024.ShapeCasts S4x4096x1024
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  reduces_S256x4096_S256 : S256x4096.Reduces [1] S256
  shapeCasts_S256_S256x1 : S256.ShapeCasts S256x1
  broadcasts_S256x1_S256x4096 : S256x1.Broadcasts S256x4096
  inb_S1x1x256x4096_S1x1x256x4096_0_0_0_0 : ∀ a, (![0, 0, 0, 0] : Fin 4 → Nat) a + S1x1x256x4096.size a ≤ S1x1x256x4096.size a
  h_S1x1x256x4096 : 0 < S1x1x256x4096.numel
  shapeCasts_S1x1x256x4096_S256x4096 : S1x1x256x4096.ShapeCasts S256x4096
  shapeCasts_S256x4096_S1x1x256x4096 : S256x4096.ShapeCasts S1x1x256x4096
  shapeCasts_S256x128_S1x256x128 : S256x128.ShapeCasts S1x256x128
  dot_S1024x1024_S1024x1024_S1024x1024_1_0_0_1_n_n_wf : DotDims.WF S1024x1024 S1024x1024 S1024x1024 [1] [0] [0] [1] [] []
  dot_S256x128_S4096x128_S256x4096_1_1_0_0_n_n_wf : DotDims.WF S256x128 S4096x128 S256x4096 [1] [1] [0] [0] [] []
  dot_S256x4096_S4096x128_S256x128_1_0_0_1_n_n_wf : DotDims.WF S256x4096 S4096x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .bf16 = 32 ∨ (Rect.block (s := S16384x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x128.size a ≤ S4x1024x1024.size a
  hwx1_0 : ∀ i : grid1.Coords, EltTy.bits .f32 = 32 ∨ (Rect.block (s := S4x1024x1024) S1x256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x128.size a ≤ S4x4096x1024.size a
  hwx1_1 : ∀ i : grid1.Coords, EltTy.bits .bf16 = 32 ∨ (Rect.block (s := S4x4096x1024) S1x4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256x4096.size a ≤ S4x8x1024x4096.size a
  hwx1_2 : ∀ i : grid1.Coords, EltTy.bits .f32 = 32 ∨ (Rect.block (s := S4x8x1024x4096) S1x1x256x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x128.size a ≤ S4x1024x1024.size a
  hwx1_3 : ∀ i : grid1.Coords, EltTy.bits .f32 = 32 ∨ (Rect.block (s := S4x1024x1024) S1x256x128.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x128_S4096x128_S256x4096_1_1_0_0_n_n : DotDims S256x128 S4096x128 S256x4096 where
  lhsContracting := [1]
  rhsContracting := [1]
  lhsNonContracting := [0]
  rhsNonContracting := [0]
  lhsBatch := []
  rhsBatch := []
  wf := dot_S256x128_S4096x128_S256x4096_1_1_0_0_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_0) S1x1x256x4096.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_1) S1x256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S4x1024x1024 : Shape := ⟨3, ![4, 1024, 1024]⟩
abbrev S1024x1024 : Shape := ⟨2, ![1024, 1024]⟩
abbrev S4x1024x8x128 : Shape := ⟨4, ![4, 1024, 8, 128]⟩
abbrev S4x8x1024x128 : Shape := ⟨4, ![4, 8, 1024, 128]⟩
abbrev S4x4096x8x128 : Shape := ⟨4, ![4, 4096, 8, 128]⟩
abbrev S4x8x4096x128 : Shape := ⟨4, ![4, 8, 4096, 128]⟩
abbrev S4x8x1024x4096 : Shape := ⟨4, ![4, 8, 1024, 4096]⟩
abbrev S_ : Shape := ⟨0, ![]⟩
abbrev S4x8x1024 : Shape := ⟨3, ![4, 8, 1024]⟩
abbrev S4x8x1024x1 : Shape := ⟨4, ![4, 8, 1024, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024x1024, .f32⟩
  | .hbm, ⟨2, _⟩ => ⟨S1024x1024, .f32⟩
  | .hbm, ⟨3, _⟩ => ⟨S4x4096x1024, .f32⟩
  | .hbm, ⟨4, _⟩ => ⟨S4x1024x8x128, .f32⟩
  | .hbm, ⟨5, _⟩ => ⟨S4x8x1024x128, .f32⟩
  | .hbm, ⟨6, _⟩ => ⟨S4x4096x8x128, .f32⟩
  | .hbm, ⟨7, _⟩ => ⟨S4x8x4096x128, .f32⟩
  | .hbm, ⟨8, _⟩ => ⟨S4x8x1024x4096, .f32⟩
  | .hbm, ⟨9, _⟩ => ⟨S_, .f32⟩
  | .hbm, ⟨10, _⟩ => ⟨S4x8x1024, .f32⟩
  | .hbm, ⟨11, _⟩ => ⟨S_, .f32⟩
  | .hbm, ⟨12, _⟩ => ⟨S4x8x1024, .f32⟩
  | .hbm, ⟨13, _⟩ => ⟨S4x8x1024, .f32⟩
  | .hbm, ⟨14, _⟩ => ⟨S4x8x1024x1, .f32⟩
  | .hbm, ⟨15, _⟩ => ⟨S4x8x1024x4096, .f32⟩
  | .hbm, ⟨16, _⟩ => ⟨S4x8x1024x4096, .f32⟩
  | .hbm, ⟨17, _⟩ => ⟨S4x8x1024x4096, .f32⟩
  | .hbm, ⟨18, _⟩ => ⟨S_, .f32⟩
  | .hbm, ⟨19, _⟩ => ⟨S4x8x1024, .f32⟩
  | .hbm, ⟨20, _⟩ => ⟨S4x8x1024x1, .f32⟩
  | .hbm, ⟨21, _⟩ => ⟨S4x8x1024x4096, .f32⟩
  | .hbm, ⟨22, _⟩ => ⟨S4x8x1024x4096, .f32⟩
  | .hbm, ⟨23, _⟩ => ⟨S4x8x1024x128, .f32⟩
  | .hbm, ⟨24, _⟩ => ⟨S4x1024x8x128, .f32⟩
  | .hbm, ⟨25, _⟩ => ⟨S4x1024x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  shapeCasts_S4x1024x1024_S4x1024x8x128 : S4x1024x1024.ShapeCasts S4x1024x8x128
  transposes_S4x1024x8x128_S4x8x1024x128_0_2_1_3 : S4x1024x8x128.Transposes [0, 2, 1, 3] S4x8x1024x128
  shapeCasts_S4x4096x1024_S4x4096x8x128 : S4x4096x1024.ShapeCasts S4x4096x8x128
  transposes_S4x4096x8x128_S4x8x4096x128_0_2_1_3 : S4x4096x8x128.Transposes [0, 2, 1, 3] S4x8x4096x128
  reducesTo_S4x8x1024x4096_S4x8x1024_d3 : S4x8x1024x4096.ReducesTo [3] S4x8x1024
  h_S_ : 0 < S_.numel
  bcast_S_S4x8x1024 : S_.BroadcastsInDim S4x8x1024 (![] : Fin 0 → Fin S4x8x1024.rank)
  bcast_S4x8x1024_S4x8x1024x1_0_1_2 : S4x8x1024.BroadcastsInDim S4x8x1024x1 (![0, 1, 2] : Fin 3 → Fin S4x8x1024x1.rank)
  bcast_S4x8x1024x1_S4x8x1024x4096_0_1_2_3 : S4x8x1024x1.BroadcastsInDim S4x8x1024x4096 (![0, 1, 2, 3] : Fin 4 → Fin S4x8x1024x4096.rank)
  transposes_S4x8x1024x128_S4x1024x8x128_0_2_1_3 : S4x8x1024x128.Transposes [0, 2, 1, 3] S4x1024x8x128
  shapeCasts_S4x1024x8x128_S4x1024x1024 : S4x1024x8x128.ShapeCasts S4x1024x1024
  dot_S4x4096x1024_S1024x1024_S4x4096x1024_2_1_01_0_n_n_wf : DotDims.WF S4x4096x1024 S1024x1024 S4x4096x1024 [2] [1] [0, 1] [0] [] []
  dot_S4x8x1024x128_S4x8x4096x128_S4x8x1024x4096_3_3_2_2_01_01_wf : DotDims.WF S4x8x1024x128 S4x8x4096x128 S4x8x1024x4096 [3] [3] [2] [2] [0, 1] [0, 1]
  dot_S4x8x1024x4096_S4x8x4096x128_S4x8x1024x128_3_2_2_3_01_01_wf : DotDims.WF S4x8x1024x4096 S4x8x4096x128 S4x8x1024x128 [3] [2] [2] [3] [0, 1] [0, 1]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x8x1024x128_S4x8x4096x128_S4x8x1024x4096_3_3_2_2_01_01 : DotDims S4x8x1024x128 S4x8x4096x128 S4x8x1024x4096 where
  lhsContracting := [3]
  rhsContracting := [3]
  lhsNonContracting := [2]
  rhsNonContracting := [2]
  lhsBatch := [0, 1]
  rhsBatch := [0, 1]
  wf := dot_S4x8x1024x128_S4x8x4096x128_S4x8x1024x4096_3_3_2_2_01_01_wf
def dot_S4x8x1024x4096_S4x8x4096x128_S4x8x1024x128_3_2_2_3_01_01 : DotDims S4x8x1024x4096 S4x8x4096x128 S4x8x1024x128 where
  lhsContracting := [3]
  rhsContracting := [2]
  lhsNonContracting := [2]
  rhsNonContracting := [3]
  lhsBatch := [0, 1]
  rhsBatch := [0, 1]
  wf := dot_S4x8x1024x4096_S4x8x4096x128_S4x8x1024x128_3_2_2_3_01_01_wf

class Facts : Prop extends Facts₀ where

variable [Facts]
-- ==== Proof.Spec.lean ====
/-
  The mathematics both programs compute, stated once over the three argument arrays.

  Inputs: visual tokens `vis[b, n, v]` (4 × 4096 × 1024), text tokens `txt[b, i, t]` (4 × 1024 × 1024) and the
  projection matrix `w[t, v]` (1024 × 1024). The visual tokens are projected, `proj[b, n, t] = Σ_v vis[b, n, v] · w[t, v]`;
  the 1024 feature columns are eight heads of 128, column `h·128 + d` being feature `d` of head `h`; per batch and head
  the score of text row `i` against visual row `j` is `Σ_d txt[b, i, h·128+d] · proj[b, j, h·128+d]`; each score row
  is normalised by the softmax over its 4096 visual positions (the row maximum subtracted first); and the
  attention output is the weighted sum of the projected rows, the projected tokens serving as both keys and values.
  Everything is on the extended reals: sums, products and maxima are the exact ones, and nothing here needs an input
  to be finite (no distributive law or cancellation is used; the two programs form the same sums of the same terms).
-/
import Idealize.ShloMosaic.PureOps.Ideal
import Idealize.ShloMosaic.Lib.ValueIdx

noncomputable section

namespace Cert.Attn

open Idealize.ShloMosaic Idealize.ShloMosaic.ValueIdx

abbrev SVis : Shape := ⟨3, ![4, 4096, 1024]⟩
abbrev STxt : Shape := ⟨3, ![4, 1024, 1024]⟩
abbrev SW : Shape := ⟨2, ![1024, 1024]⟩
abbrev SAttn : Shape := ⟨4, ![4, 8, 1024, 4096]⟩

/-- Feature `d` of head `h` among the 1024 columns. -/
abbrev col (h : Fin 8) (d : Fin 128) : Fin 1024 := ⟨h.val * 128 + d.val, by omega⟩

/-- The projected visual token: `Σ_v vis[b, n, v] · w[t, v]`. -/
def proj (vis : SVis.Idx → EReal) (w : SW.Idx → EReal) (b : Fin 4) (n : Fin 4096) (t : Fin 1024) : EReal :=
  ∑ v : Fin 1024, vis (ix3 b n v) * w (ix2 t v)

/-- The score of text row `i` against visual row `j` in head `h` of batch `b`. -/
def score (vis : SVis.Idx → EReal) (txt : STxt.Idx → EReal) (w : SW.Idx → EReal) (b : Fin 4) (h : Fin 8) (i : Fin 1024)
    (j : Fin 4096) : EReal :=
  ∑ d : Fin 128, txt (ix3 b i (col h d)) * proj vis w b j (col h d)

/-- The maximum of a row of 4096 extended reals (`⊥` is the neutral element of `max`). -/
def rowMax (f : Fin 4096 → EReal) : EReal := (Finset.univ : Finset (Fin 4096)).fold max ⊥ f

/-- The softmax of a row, the maximum subtracted before exponentiating. -/
def softmax (f : Fin 4096 → EReal) (j : Fin 4096) : EReal :=
  Ideal.div (Ideal.exp (f j - rowMax f)) (∑ k : Fin 4096, Ideal.exp (f k - rowMax f))

/-- The attention weights, a 4 × 8 × 1024 × 4096 array. -/
def attn (vis : SVis.Idx → EReal) (txt : STxt.Idx → EReal) (w : SW.Idx → EReal) : SAttn.Idx → EReal :=
  fun i => softmax (score vis txt w ⟨(i 0).val, (i 0).isLt⟩ ⟨(i 1).val, (i 1).isLt⟩ ⟨(i 2).val, (i 2).isLt⟩) ⟨(i 3).val, (i 3).isLt⟩

/-- The attention output at text row `r`, head `h`, feature `d`. -/
def outAt (vis : SVis.Idx → EReal) (txt : STxt.Idx → EReal) (w : SW.Idx → EReal) (b : Fin 4) (r : Fin 1024) (h : Fin 8)
    (d : Fin 128) : EReal :=
  ∑ j : Fin 4096, softmax (score vis txt w b h r) j * proj vis w b j (col h d)

/-- The attention output, a 4 × 1024 × 1024 array: column `t` is feature `t % 128` of head `t / 128`. -/
def out (vis : SVis.Idx → EReal) (txt : STxt.Idx → EReal) (w : SW.Idx → EReal) : STxt.Idx → EReal :=
  fun i => outAt vis txt w ⟨(i 0).val, (i 0).isLt⟩ ⟨(i 1).val, (i 1).isLt⟩
    ⟨(i 2).val / 128, by have h2 : (i 2).val < 1024 := (i 2).isLt; omega⟩
    ⟨(i 2).val % 128, Nat.mod_lt _ (by decide)⟩

/-- `max` against the bottom element is the identity, and so a fold of `max` from `⊥` absorbs one more `⊥`. -/
theorem max_bot_rowMax (f : Fin 4096 → EReal) : max ⊥ (rowMax f) = rowMax f := max_eq_right bot_le

/-- The bit pattern of `-∞` denotes the bottom element. -/
theorem ofBits_neg_inf : Ideal.ofBits .f32 0xFF800000#32 = (⊥ : EReal) := by simp [Ideal.ofBits, Ideal.ieee]

/-- The bit pattern of `+0` denotes zero. -/
theorem ofBits_zero : Ideal.ofBits .f32 0x00000000#32 = (0 : EReal) := by simp [Ideal.ofBits, Ideal.ieee]

end Cert.Attn

end
-- ==== Proof.RefValue.lean ====
import proofs.«421947_j20151986553032_3_alg».proof.Proof.Gen.ReferenceIdeal.Read
import proofs.«421947_j20151986553032_3_alg».proof.Proof.Spec

/-!
  The reference program computes the attention of the specification.

  Each stage of the reference is read at an index whose coordinates are literal-typed variables, from the first
  projection down to the two results: the projected visual tokens, the text tokens split into heads, the scores,
  the row maxima, the exponentials and their row sums, the attention weights, and the weighted sum of the projected
  rows gathered back into 1024 columns. The reshapes between 1024 columns and eight heads of 128 are the only
  places where arithmetic on indices is needed: column `h·128 + d` of row `(b, n)` and entry `(b, n, h, d)` have
  the same row-major position.
-/

noncomputable section

open Idealize.ShloMosaic Idealize.ShloMosaic.TcCoe Idealize.SL.Sem

namespace Cert.RefValue

open Cert.ReferenceIdeal Cert.ReferenceIdeal.Read
open Idealize.ShloMosaic.ValueIdx
open Cert.Attn (col proj score rowMax softmax attn outAt)

/-! ### The index maps of the layout operations and contractions, at coordinates -/

theorem idx_v4_ix (b : Fin 4) (h : Fin 8) (j : Fin 4096) (d : Fin 128) :
    idx_main_v4 (ix4 b h j d) = ix4 b j h d := by
  funext a; match a with | ⟨0, _⟩ => rfl | ⟨1, _⟩ => rfl | ⟨2, _⟩ => rfl | ⟨3, _⟩ => rfl

/-- Entry `(b, j, h, d)` of the 4 × 4096 × 8 × 128 array is entry `(b, j, h·128 + d)` of the 4 × 4096 × 1024 one. -/
theorem idx_v3_ix (b : Fin 4) (j : Fin 4096) (h : Fin 8) (d : Fin 128) :
    idx_main_v3 (ix4 b j h d) = ix3 b j (col h d) := by
  have hb := b.isLt; have hj := j.isLt; have hh := h.isLt; have hd := d.isLt
  funext a; apply Fin.ext
  match a with
  | ⟨0, _⟩ => show (((b.val * 4096 + j.val) * 8 + h.val) * 128 + d.val) / 4194304 = b.val; omega
  | ⟨1, _⟩ => show (((b.val * 4096 + j.val) * 8 + h.val) * 128 + d.val) / 1024 % 4096 = j.val; omega
  | ⟨2, _⟩ => show (((b.val * 4096 + j.val) * 8 + h.val) * 128 + d.val) % 1024 = h.val * 128 + d.val; omega

theorem lidx_v0_ix (b : Fin 4) (n : Fin 4096) (t : Fin 1024) (k : Fin 1024) :
    lidx_main_v0 (ix3 b n t) k = ix3 b n k := by
  funext a; match a with | ⟨0, _⟩ => rfl | ⟨1, _⟩ => rfl | ⟨2, _⟩ => rfl

theorem ridx_v0_ix (b : Fin 4) (n : Fin 4096) (t : Fin 1024) (k : Fin 1024) :
    ridx_main_v0 (ix3 b n t) k = ix2 t k := by
  funext a; match a with | ⟨0, _⟩ => rfl | ⟨1, _⟩ => rfl

theorem idx_v2_ix (b : Fin 4) (h : Fin 8) (i : Fin 1024) (d : Fin 128) :
    idx_main_v2 (ix4 b h i d) = ix4 b i h d := by
  funext a; match a with | ⟨0, _⟩ => rfl | ⟨1, _⟩ => rfl | ⟨2, _⟩ => rfl | ⟨3, _⟩ => rfl

/-- Entry `(b, i, h, d)` of the 4 × 1024 × 8 × 128 array is entry `(b, i, h·128 + d)` of the 4 × 1024 × 1024 one. -/
theorem idx_v1_ix (b : Fin 4) (i : Fin 1024) (h : Fin 8) (d : Fin 128) :
    idx_main_v1 (ix4 b i h d) = ix3 b i (col h d) := by
  have hb := b.isLt; have hi := i.isLt; have hh := h.isLt; have hd := d.isLt
  funext a; apply Fin.ext
  match a with
  | ⟨0, _⟩ => show (((b.val * 1024 + i.val) * 8 + h.val) * 128 + d.val) / 1048576 = b.val; omega
  | ⟨1, _⟩ => show (((b.val * 1024 + i.val) * 8 + h.val) * 128 + d.val) / 1024 % 1024 = i.val; omega
  | ⟨2, _⟩ => show (((b.val * 1024 + i.val) * 8 + h.val) * 128 + d.val) % 1024 = h.val * 128 + d.val; omega

theorem lidx_v5_ix (b : Fin 4) (h : Fin 8) (i : Fin 1024) (j : Fin 4096) (k : Fin 128) :
    lidx_main_v5 (ix4 b h i j) k = ix4 b h i k := by
  funext a; match a with | ⟨0, _⟩ => rfl | ⟨1, _⟩ => rfl | ⟨2, _⟩ => rfl | ⟨3, _⟩ => rfl

theorem ridx_v5_ix (b : Fin 4) (h : Fin 8) (i : Fin 1024) (j : Fin 4096) (k : Fin 128) :
    ridx_main_v5 (ix4 b h i j) k = ix4 b h j k := by
  funext a; match a with | ⟨0, _⟩ => rfl | ⟨1, _⟩ => rfl | ⟨2, _⟩ => rfl | ⟨3, _⟩ => rfl

theorem idx_v10_ix (b : Fin 4) (h : Fin 8) (i : Fin 1024) (j : Fin 4096) :
    idx_main_v10 (ix4 b h i j) = ix4 b h i (⟨0, Nat.one_pos⟩ : Fin 1) := by
  funext a; match a with | ⟨0, _⟩ => rfl | ⟨1, _⟩ => rfl | ⟨2, _⟩ => rfl | ⟨3, _⟩ => rfl

theorem idx_v9_ix (b : Fin 4) (h : Fin 8) (i : Fin 1024) (z : Fin 1) :
    idx_main_v9 (ix4 b h i z) = ix3 b h i := by
  funext a; match a with | ⟨0, _⟩ => rfl | ⟨1, _⟩ => rfl | ⟨2, _⟩ => rfl

theorem idx_v13_ix (b : Fin 4) (h : Fin 8) (i : Fin 1024) (k : Fin 4096) :
    idx_main_v13 (ix3 b h i) k = ix4 b h i k := by
  funext a; match a with | ⟨0, _⟩ => rfl | ⟨1, _⟩ => rfl | ⟨2, _⟩ => rfl | ⟨3, _⟩ => rfl

theorem idx_v15_ix (b : Fin 4) (h : Fin 8) (i : Fin 1024) (j : Fin 4096) :
    idx_main_v15 (ix4 b h i j) = ix4 b h i (⟨0, Nat.one_pos⟩ : Fin 1) := by
  funext a; match a with | ⟨0, _⟩ => rfl | ⟨1, _⟩ => rfl | ⟨2, _⟩ => rfl | ⟨3, _⟩ => rfl

theorem idx_v14_ix (b : Fin 4) (h : Fin 8) (i : Fin 1024) (z : Fin 1) :
    idx_main_v14 (ix4 b h i z) = ix3 b h i := by
  funext a; match a with | ⟨0, _⟩ => rfl | ⟨1, _⟩ => rfl | ⟨2, _⟩ => rfl

theorem lidx_v17_ix (b : Fin 4) (h : Fin 8) (r : Fin 1024) (d : Fin 128) (k : Fin 4096) :
    lidx_main_v17 (ix4 b h r d) k = ix4 b h r k := by
  funext a; match a with | ⟨0, _⟩ => rfl | ⟨1, _⟩ => rfl | ⟨2, _⟩ => rfl | ⟨3, _⟩ => rfl

theorem ridx_v17_ix (b : Fin 4) (h : Fin 8) (r : Fin 1024) (d : Fin 128) (k : Fin 4096) :
    ridx_main_v17 (ix4 b h r d) k = ix4 b h k d := by
  funext a; match a with | ⟨0, _⟩ => rfl | ⟨1, _⟩ => rfl | ⟨2, _⟩ => rfl | ⟨3, _⟩ => rfl

theorem idx_v18_ix (b : Fin 4) (r : Fin 1024) (h : Fin 8) (d : Fin 128) :
    idx_main_v18 (ix4 b r h d) = ix4 b h r d := by
  funext a; match a with | ⟨0, _⟩ => rfl | ⟨1, _⟩ => rfl | ⟨2, _⟩ => rfl | ⟨3, _⟩ => rfl

/-- Column `t` of row `(b, r)` of the 4 × 1024 × 1024 array is entry `(b, r, t / 128, t % 128)` of the
    4 × 1024 × 8 × 128 one. -/
theorem idx_v19_ix (b : Fin 4) (r : Fin 1024) (t : Fin 1024) :
    idx_main_v19 (ix3 b r t)
      = ix4 b r (⟨t.val / 128, by have := t.isLt; omega⟩ : Fin 8) (⟨t.val % 128, Nat.mod_lt _ (by decide)⟩ : Fin 128) := by
  have hb := b.isLt; have hr := r.isLt; have ht := t.isLt
  funext a; apply Fin.ext
  match a with
  | ⟨0, _⟩ => show ((b.val * 1024 + r.val) * 1024 + t.val) / 1048576 = b.val; omega
  | ⟨1, _⟩ => show ((b.val * 1024 + r.val) * 1024 + t.val) / 1024 % 1024 = r.val; omega
  | ⟨2, _⟩ => show ((b.val * 1024 + r.val) * 1024 + t.val) / 128 % 8 = t.val / 128; omega
  | ⟨3, _⟩ => show ((b.val * 1024 + r.val) * 1024 + t.val) % 128 = t.val % 128; omega

/-! ### The stages at coordinates -/

section Stages

variable (x0 : (⟨S4x4096x1024, .f32⟩ : BufTy).Contents (Elt Ideal)) (x1 : (⟨S4x1024x1024, .f32⟩ : BufTy).Contents (Elt Ideal))
  (x2 : (⟨S1024x1024, .f32⟩ : BufTy).Contents (Elt Ideal))

/-- The first contraction is the projection of the visual tokens. -/
theorem v0_ix (b : Fin 4) (n : Fin 4096) (t : Fin 1024) :
    val_main_v0 (F := Ideal) x0 x2 (ix3 b n t) = proj x0 x2 b n t := by
  rw [val_main_v0_apply]
  unfold Cert.Attn.proj
  refine Finset.sum_congr rfl fun k _ => ?_
  rw [lidx_v0_ix, ridx_v0_ix]

/-- Split into heads and transposed, the projection at `(b, h, j, d)` is feature `d` of head `h` of row `j`. -/
theorem v4_ix (b : Fin 4) (h : Fin 8) (j : Fin 4096) (d : Fin 128) :
    val_main_v4 (F := Ideal) x0 x2 (ix4 b h j d) = proj x0 x2 b j (col h d) := by
  rw [val_main_v4_apply, idx_v4_ix, val_main_v3_apply, idx_v3_ix, v0_ix]

/-- The text tokens split into heads and transposed. -/
theorem v2_ix (b : Fin 4) (h : Fin 8) (i : Fin 1024) (d : Fin 128) :
    val_main_v2 (F := Ideal) x1 (ix4 b h i d) = x1 (ix3 b i (col h d)) := by
  rw [val_main_v2_apply, idx_v2_ix, val_main_v1_apply, idx_v1_ix]

/-- The second contraction is the score. -/
theorem v5_ix (b : Fin 4) (h : Fin 8) (i : Fin 1024) (j : Fin 4096) :
    val_main_v5 (F := Ideal) x0 x1 x2 (ix4 b h i j) = score x0 x1 x2 b h i j := by
  rw [val_main_v5_apply]
  unfold Cert.Attn.score
  refine Finset.sum_congr rfl fun k _ => ?_
  rw [lidx_v5_ix, ridx_v5_ix, v2_ix, v4_ix]

end Stages

/-! ### The row maximum -/

/-- The shape fact that names the index inserted on the reduced axis. -/
theorem hred : S4x8x1024x4096.Reduces [3] S4x8x1024 := by decide

/-- Over `(b, h, i)`, coordinate `k` on the reduced axis gives `(b, h, i, k)`. -/
theorem lift_ix (b : Fin 4) (h : Fin 8) (i : Fin 1024) (k : Fin 4096) :
    hred.lift (ix3 b h i) k = ix4 b h i k := by
  funext a; apply Fin.ext
  match a with | ⟨0, _⟩ => rfl | ⟨1, _⟩ => rfl | ⟨2, _⟩ => rfl | ⟨3, _⟩ => rfl

section Softmax

variable (x0 : (⟨S4x4096x1024, .f32⟩ : BufTy).Contents (Elt Ideal)) (x1 : (⟨S4x1024x1024, .f32⟩ : BufTy).Contents (Elt Ideal))
  (x2 : (⟨S1024x1024, .f32⟩ : BufTy).Contents (Elt Ideal))

/-- The max-reduce over the last axis, from `-∞`, is the row maximum of the scores. -/
theorem v6_ix (b : Fin 4) (h : Fin 8) (i : Fin 1024) :
    val_main_v6 (F := Ideal) x0 x1 x2 (ix3 b h i) = rowMax (score x0 x1 x2 b h i) := by
  unfold val_main_v6
  rw [Host.reduce_eq_fold_single _ _ _ Gen.reducesTo_S4x8x1024x4096_S4x8x1024_d3 hred Gen.h_S_]
  have hf : (fun k : Fin 4096 => val_main_v5 (F := Ideal) x0 x1 x2 (hred.lift (ix3 b h i) k)) = score x0 x1 x2 b h i :=
    funext fun k => by rw [lift_ix, v5_ix]
  show (Finset.univ : Finset (Fin 4096)).fold max (Ideal.ofBits .f32 0xFF800000#32)
      (fun k : Fin 4096 => val_main_v5 (F := Ideal) x0 x1 x2 (hred.lift (ix3 b h i) k)) = _
  rw [hf, Cert.Attn.ofBits_neg_inf]
  rfl

/-- Taking the maximum once more against `-∞` changes nothing. -/
theorem v8_ix (b : Fin 4) (h : Fin 8) (i : Fin 1024) :
    val_main_v8 (F := Ideal) x0 x1 x2 (ix3 b h i) = rowMax (score x0 x1 x2 b h i) := by
  rw [val_main_v8_apply, v6_ix, val_main_v7_apply, val_main_cst_0_apply]
  show max (Ideal.ofBits .f32 0xFF800000#32) _ = _
  rw [Cert.Attn.ofBits_neg_inf, Cert.Attn.max_bot_rowMax]

/-- The row maximum broadcast along the row. -/
theorem v10_ix (b : Fin 4) (h : Fin 8) (i : Fin 1024) (j : Fin 4096) :
    val_main_v10 (F := Ideal) x0 x1 x2 (ix4 b h i j) = rowMax (score x0 x1 x2 b h i) := by
  rw [val_main_v10_apply, idx_v10_ix, val_main_v9_apply, idx_v9_ix, v8_ix]

/-- The exponential of the score less its row maximum. -/
theorem v12_ix (b : Fin 4) (h : Fin 8) (i : Fin 1024) (j : Fin 4096) :
    val_main_v12 (F := Ideal) x0 x1 x2 (ix4 b h i j)
      = Ideal.exp (score x0 x1 x2 b h i j - rowMax (score x0 x1 x2 b h i)) := by
  rw [val_main_v12_apply, val_main_v11_apply, v5_ix, v10_ix]
  rfl

/-- The row sum of the exponentials (the sum starts from zero). -/
theorem v13_ix (b : Fin 4) (h : Fin 8) (i : Fin 1024) :
    val_main_v13 (F := Ideal) x0 x1 x2 (ix3 b h i)
      = ∑ k : Fin 4096, Ideal.exp (score x0 x1 x2 b h i k - rowMax (score x0 x1 x2 b h i)) := by
  rw [val_main_v13_apply, val_main_cst_1_apply]
  show Ideal.ofBits .f32 0x00000000#32 + _ = _
  rw [Cert.Attn.ofBits_zero, zero_add]
  refine Finset.sum_congr rfl fun k _ => ?_
  rw [idx_v13_ix, v12_ix]

/-- The row sum broadcast along the row. -/
theorem v15_ix (b : Fin 4) (h : Fin 8) (i : Fin 1024) (j : Fin 4096) :
    val_main_v15 (F := Ideal) x0 x1 x2 (ix4 b h i j)
      = ∑ k : Fin 4096, Ideal.exp (score x0 x1 x2 b h i k - rowMax (score x0 x1 x2 b h i)) := by
  rw [val_main_v15_apply, idx_v15_ix, val_main_v14_apply, idx_v14_ix, v13_ix]

/-- The attention weight. -/
theorem v16_ix (b : Fin 4) (h : Fin 8) (i : Fin 1024) (j : Fin 4096) :
    val_main_v16 (F := Ideal) x0 x1 x2 (ix4 b h i j) = softmax (score x0 x1 x2 b h i) j := by
  rw [val_main_v16_apply, v12_ix, v15_ix]
  rfl

/-- The third contraction is the weighted sum of the projected rows. -/
theorem v17_ix (b : Fin 4) (h : Fin 8) (r : Fin 1024) (d : Fin 128) :
    val_main_v17 (F := Ideal) x0 x1 x2 (ix4 b h r d) = outAt x0 x1 x2 b r h d := by
  rw [val_main_v17_apply]
  unfold Cert.Attn.outAt
  refine Finset.sum_congr rfl fun k _ => ?_
  rw [lidx_v17_ix, ridx_v17_ix, v16_ix, v4_ix]

/-- Transposed back and gathered into 1024 columns. -/
theorem v19_ix (b : Fin 4) (r : Fin 1024) (t : Fin 1024) :
    val_main_v19 (F := Ideal) x0 x1 x2 (ix3 b r t)
      = outAt x0 x1 x2 b r (⟨t.val / 128, by have := t.isLt; omega⟩ : Fin 8) (⟨t.val % 128, Nat.mod_lt _ (by decide)⟩ : Fin 128) := by
  rw [val_main_v19_apply, idx_v19_ix, val_main_v18_apply, idx_v18_ix, v17_ix]

end Softmax

/-! ### The two results -/

/-- The reference's attention weights are the specification's. -/
theorem ref_attn (x0 : (⟨S4x4096x1024, .f32⟩ : BufTy).Contents (Elt Ideal)) (x1 : (⟨S4x1024x1024, .f32⟩ : BufTy).Contents (Elt Ideal)) (x2 : (⟨S1024x1024, .f32⟩ : BufTy).Contents (Elt Ideal)) :
    val_main_v16 (F := Ideal) x0 x1 x2 = Cert.Attn.attn x0 x1 x2 := by
  funext i
  obtain ⟨b, h, r, j, rfl⟩ : ∃ (b : Fin 4) (h : Fin 8) (r : Fin 1024) (j : Fin 4096), i = ix4 b h r j :=
    ⟨i 0, i 1, i 2, i 3, eq_ix4 i⟩
  exact v16_ix x0 x1 x2 b h r j

/-- The reference's attention output is the specification's. -/
theorem ref_out (x0 : (⟨S4x4096x1024, .f32⟩ : BufTy).Contents (Elt Ideal)) (x1 : (⟨S4x1024x1024, .f32⟩ : BufTy).Contents (Elt Ideal)) (x2 : (⟨S1024x1024, .f32⟩ : BufTy).Contents (Elt Ideal)) :
    val_main_v19 (F := Ideal) x0 x1 x2 = Cert.Attn.out x0 x1 x2 := by
  funext i
  obtain ⟨b, r, t, rfl⟩ : ∃ (b : Fin 4) (r : Fin 1024) (t : Fin 1024), i = ix3 b r t := ⟨i 0, i 1, i 2, eq_ix3 i⟩
  exact v19_ix x0 x1 x2 b r t

end Cert.RefValue

end
-- ==== Proof.AttnPayload.lean ====
/-
  The attention kernel's body, read at an index.

  At one grid point the body holds a query block `x0` (1 × 256 × 128) and a key block `x1` (1 × 4096 × 128). Its score
  matrix is `S[r, j] = Σ_d x0[0, r, d] · x1[0, j, d]`; the stored attention block is the row softmax of `S` (the row
  maximum, a fold of `max` from `-∞`, subtracted before exponentiating; the normaliser the plain row sum), and the stored
  output block is `Σ_j softmax(S[r, ·])[j] · x1[0, j, d]`: the keys serve as the values. A change of float format is the
  identity on the extended reals, so the two narrowing casts vanish.
-/
import proofs.«421947_j20151986553032_3_alg».proof.Proof.Gen.KernelIdeal.Skeleton
import proofs.«421947_j20151986553032_3_alg».proof.Proof.Spec
import Idealize.ShloMosaic.Lib.Pipeline.Value
import Idealize.ShloMosaic.Lib.ValueIdx
import Idealize.ShloMosaic.PureOps.Ideal.Laws

noncomputable section

namespace Cert.KernelIdeal.AttnPayload

open Cert.KernelIdeal Cert.KernelIdeal.Gen Idealize.ShloMosaic Idealize.ShloMosaic.ValueIdx

/-! ## The two matrix products' operand indices -/

abbrev dQK := dot_S256x128_S4096x128_S256x4096_1_1_0_0_n_n
abbrev dAV := dot_S256x4096_S4096x128_S256x128_1_0_0_1_n_n

theorem lhs_qk_0 (i : S256x4096.Idx) (q : dot_S256x128_S4096x128_S256x4096_1_1_0_0_n_n.contr.Idx) :
    (dot_S256x128_S4096x128_S256x4096_1_1_0_0_n_n.lhsIdx i q 0).val = (i 0).val := by
  unfold DotDims.lhsIdx
  rw [dif_neg (show ¬(0 : Fin S256x128.rank) ∈ dot_S256x128_S4096x128_S256x4096_1_1_0_0_n_n.lhsBatch by decide), dif_pos (show (0 : Fin S256x128.rank) ∈ dot_S256x128_S4096x128_S256x4096_1_1_0_0_n_n.lhsNonContracting by decide)]
  rfl
theorem lhs_qk_1 (i : S256x4096.Idx) (q : dot_S256x128_S4096x128_S256x4096_1_1_0_0_n_n.contr.Idx) :
    (dot_S256x128_S4096x128_S256x4096_1_1_0_0_n_n.lhsIdx i q 1).val = (q ⟨0, by decide⟩).val :=
  dot_S256x128_S4096x128_S256x4096_1_1_0_0_n_n.lhsIdx_val_of_single rfl i q
theorem rhs_qk_0 (i : S256x4096.Idx) (q : dot_S256x128_S4096x128_S256x4096_1_1_0_0_n_n.contr.Idx) :
    (dot_S256x128_S4096x128_S256x4096_1_1_0_0_n_n.rhsIdx i q 0).val = (i 1).val := by
  unfold DotDims.rhsIdx
  rw [dif_neg (show ¬(0 : Fin S4096x128.rank) ∈ dot_S256x128_S4096x128_S256x4096_1_1_0_0_n_n.rhsBatch by decide), dif_pos (show (0 : Fin S4096x128.rank) ∈ dot_S256x128_S4096x128_S256x4096_1_1_0_0_n_n.rhsNonContracting by decide)]
  rfl
theorem rhs_qk_1 (i : S256x4096.Idx) (q : dot_S256x128_S4096x128_S256x4096_1_1_0_0_n_n.contr.Idx) :
    (dot_S256x128_S4096x128_S256x4096_1_1_0_0_n_n.rhsIdx i q 1).val = (q ⟨0, by decide⟩).val :=
  dot_S256x128_S4096x128_S256x4096_1_1_0_0_n_n.rhsIdx_val_of_single rfl i q

theorem lhs_av_0 (i : S256x128.Idx) (q : dot_S256x4096_S4096x128_S256x128_1_0_0_1_n_n.contr.Idx) :
    (dot_S256x4096_S4096x128_S256x128_1_0_0_1_n_n.lhsIdx i q 0).val = (i 0).val := by
  unfold DotDims.lhsIdx
  rw [dif_neg (show ¬(0 : Fin S256x4096.rank) ∈ dot_S256x4096_S4096x128_S256x128_1_0_0_1_n_n.lhsBatch by decide), dif_pos (show (0 : Fin S256x4096.rank) ∈ dot_S256x4096_S4096x128_S256x128_1_0_0_1_n_n.lhsNonContracting by decide)]
  rfl
theorem lhs_av_1 (i : S256x128.Idx) (q : dot_S256x4096_S4096x128_S256x128_1_0_0_1_n_n.contr.Idx) :
    (dot_S256x4096_S4096x128_S256x128_1_0_0_1_n_n.lhsIdx i q 1).val = (q ⟨0, by decide⟩).val :=
  dot_S256x4096_S4096x128_S256x128_1_0_0_1_n_n.lhsIdx_val_of_single rfl i q
theorem rhs_av_0 (i : S256x128.Idx) (q : dot_S256x4096_S4096x128_S256x128_1_0_0_1_n_n.contr.Idx) :
    (dot_S256x4096_S4096x128_S256x128_1_0_0_1_n_n.rhsIdx i q 0).val = (q ⟨0, by decide⟩).val :=
  dot_S256x4096_S4096x128_S256x128_1_0_0_1_n_n.rhsIdx_val_of_single rfl i q
theorem rhs_av_1 (i : S256x128.Idx) (q : dot_S256x4096_S4096x128_S256x128_1_0_0_1_n_n.contr.Idx) :
    (dot_S256x4096_S4096x128_S256x128_1_0_0_1_n_n.rhsIdx i q 1).val = (i 1).val := by
  unfold DotDims.rhsIdx
  rw [dif_neg (show ¬(1 : Fin S4096x128.rank) ∈ dot_S256x4096_S4096x128_S256x128_1_0_0_1_n_n.rhsBatch by decide), dif_pos (show (1 : Fin S4096x128.rank) ∈ dot_S256x4096_S4096x128_S256x128_1_0_0_1_n_n.rhsNonContracting by decide)]
  rfl

/-! ## The key block as a matrix, and the score matrix -/

/-- The key block with its unit axis dropped. -/
theorem keys_apply (x1 : Vec Ideal S1x4096x128 .bf16) (j : Fin 4096) (d : Fin 128) :
    k1_pay1 x1 (ix2 j d) = x1 (ix3 0 j d) := by
  unfold k1_pay1
  exact shapeCast_apply x1 shapeCasts_S1x4096x128_S4096x128 (ix2 j d) (ix3 0 j d)
    (by rw [Shape.rowMajor_val_three, Shape.rowMajor_val_two]; show (0 * 4096 + j.val) * 128 + d.val = j.val * 128 + d.val; omega)

/-- The query block with its unit axis dropped. -/
theorem queries_apply (x0 : Vec Ideal S1x256x128 .f32) (r : Fin 256) (d : Fin 128) :
    shapeCast S256x128 x0 shapeCasts_S1x256x128_S256x128 (ix2 r d) = x0 (ix3 0 r d) :=
  shapeCast_apply x0 shapeCasts_S1x256x128_S256x128 (ix2 r d) (ix3 0 r d)
    (by rw [Shape.rowMajor_val_three, Shape.rowMajor_val_two]; show (0 * 256 + r.val) * 128 + d.val = r.val * 128 + d.val; omega)

/-- The score matrix of one grid point: queries times keys, contracted over the 128 features. -/
def scoreBlk (x0 : Vec Ideal S1x256x128 .f32) (x1 : Vec Ideal S1x4096x128 .bf16) : FVec Ideal S256x4096 .f32 :=
  matmul dot_S256x128_S4096x128_S256x4096_1_1_0_0_n_n none
    (truncf .bf16 (shapeCast S256x128 x0 shapeCasts_S1x256x128_S256x128) bitsLt_bf16_f32) (k1_pay1 x1)
    (constant S256x4096 .f32 0x00000000#32)

theorem scoreBlk_apply (x0 : Vec Ideal S1x256x128 .f32) (x1 : Vec Ideal S1x4096x128 .bf16) (r : Fin 256) (j : Fin 4096) :
    scoreBlk x0 x1 (ix2 r j) = ∑ d : Fin 128, x0 (ix3 0 r d) * x1 (ix3 0 j d) := by
  unfold scoreBlk
  simp only [matmul]
  rw [Ideal.matmul_constant_zero_apply, ← Equiv.sum_comp (ValueIdx.contrEquiv1 dot_S256x128_S4096x128_S256x4096_1_1_0_0_n_n 128 rfl rfl).symm]
  refine Finset.sum_congr rfl fun k _ => ?_
  have hk := ValueIdx.contrEquiv1_symm_val dot_S256x128_S4096x128_S256x4096_1_1_0_0_n_n 128 rfl rfl k
  have el : dot_S256x128_S4096x128_S256x4096_1_1_0_0_n_n.lhsIdx (ix2 r j) ((ValueIdx.contrEquiv1 dot_S256x128_S4096x128_S256x4096_1_1_0_0_n_n 128 rfl rfl).symm k) = ix2 r k := funext fun a => Fin.ext (by
    match a with
    | ⟨0, _⟩ => exact lhs_qk_0 _ _
    | ⟨1, _⟩ => exact (lhs_qk_1 _ _).trans hk)
  have er : dot_S256x128_S4096x128_S256x4096_1_1_0_0_n_n.rhsIdx (ix2 r j) ((ValueIdx.contrEquiv1 dot_S256x128_S4096x128_S256x4096_1_1_0_0_n_n 128 rfl rfl).symm k) = ix2 j k := funext fun a => Fin.ext (by
    match a with
    | ⟨0, _⟩ => exact rhs_qk_0 _ _
    | ⟨1, _⟩ => exact (rhs_qk_1 _ _).trans hk)
  rw [el, er, keys_apply]
  exact congrArg (· * x1 (ix3 0 j k)) (queries_apply x0 r k)

/-! ## The row softmax of a 256 × 4096 matrix, as the body computes it -/

/-- Inserting the reduced coordinate back: the index of row `r`, column `k`. -/
theorem lift_row (r : Fin 256) (k : Fin 4096) : reduces_S256x4096_S256.lift (ix1 r) k = ix2 r k :=
  funext fun a => Fin.ext (by match a with | ⟨0, _⟩ => rfl | ⟨1, _⟩ => rfl)

/-- A row's maximum as the body takes it: the fold of `max` over the row from `-∞`, the bottom element. -/
theorem rowMax_apply (S : FVec Ideal S256x4096 .f32) (hφ : FKind.Formats .f32)
    (hacc : (0xFF800000#32 : BitVec 32) = FKind.maximumf.neutral .f32 hφ) (r : Fin 256) :
    multiReduction .maximumf [1] S256 S 0xFF800000#32 reduces_S256x4096_S256 hφ hacc (ix1 r)
      = Cert.Attn.rowMax (fun j => S (ix2 r j)) := by
  refine (Ideal.multiReduction_maximumf_single S _ reduces_S256x4096_S256 hφ hacc (ix1 r)).trans ?_
  show (Finset.univ : Finset (Fin 4096)).fold max (Ideal.ofBits .f32 0xFF800000#32) (fun k => S (reduces_S256x4096_S256.lift (ix1 r) k)) = _
  rw [Cert.Attn.ofBits_neg_inf]
  unfold Cert.Attn.rowMax
  exact congrArg (fun f => Finset.fold max ⊥ f Finset.univ) (funext fun k => congrArg S (lift_row r k))

/-- A row's sum as the body takes it. -/
theorem rowSum_apply (P : FVec Ideal S256x4096 .f32) (hφ : FKind.Formats .f32)
    (hacc : (0x00000000#32 : BitVec 32) = FKind.add.neutral .f32 hφ) (r : Fin 256) :
    multiReduction .add [1] S256 P 0x00000000#32 reduces_S256x4096_S256 hφ hacc (ix1 r) = ∑ k : Fin 4096, P (ix2 r k) := by
  refine (Ideal.multiReduction_add_single P _ reduces_S256x4096_S256 hφ hacc (ix1 r)).trans ?_
  show ∑ k : Fin 4096, P (reduces_S256x4096_S256.lift (ix1 r) k) = _
  exact Finset.sum_congr rfl fun k _ => congrArg P (lift_row r k)

/-- A vector of 256 row values, made a column and spread over the 4096 columns, reads its row's value everywhere. -/
theorem column_apply (v : S256.Idx → EReal) (r : Fin 256) (j : Fin 4096) :
    broadcastTo S256x4096 (shapeCast S256x1 v shapeCasts_S256_S256x1) broadcasts_S256x1_S256x4096 (ix2 r j) = v (ix1 r) := by
  refine (broadcastTo_apply _ broadcasts_S256x1_S256x4096 (ix2 r j) (ix2 r (0 : Fin 1)) (fun a => ?_)).trans ?_
  · match a with
    | ⟨0, _⟩ => show r.val = if (256 : Nat) = 1 then 0 else r.val; rw [if_neg (by decide)]
    | ⟨1, _⟩ => show 0 = if (1 : Nat) = 1 then 0 else j.val; rw [if_pos rfl]
  · exact shapeCast_apply v shapeCasts_S256_S256x1 (ix2 r (0 : Fin 1)) (ix1 r)
      (by rw [Shape.rowMajor_val_one, Shape.rowMajor_val_two]; show r.val = r.val * 1 + 0; omega)

/-- The body's softmax of a matrix `S`, row by row. -/
def softmaxBlk (S : FVec Ideal S256x4096 .f32) : FVec Ideal S256x4096 .f32 :=
  divf
    (exp (subf S (broadcastTo S256x4096 (shapeCast S256x1 (multiReduction .maximumf [1] S256 S 0xFF800000#32 reduces_S256x4096_S256 (.inl rfl) rfl) shapeCasts_S256_S256x1) broadcasts_S256x1_S256x4096)))
    (broadcastTo S256x4096 (shapeCast S256x1 (multiReduction .add [1] S256
      (exp (subf S (broadcastTo S256x4096 (shapeCast S256x1 (multiReduction .maximumf [1] S256 S 0xFF800000#32 reduces_S256x4096_S256 (.inl rfl) rfl) shapeCasts_S256_S256x1) broadcasts_S256x1_S256x4096)))
      0x00000000#32 reduces_S256x4096_S256 (.inl rfl) rfl) shapeCasts_S256_S256x1) broadcasts_S256x1_S256x4096)

/-- The exponentials of a row, its maximum subtracted. -/
theorem expBlk_apply (S : FVec Ideal S256x4096 .f32) (r : Fin 256) (j : Fin 4096) :
    exp (subf S (broadcastTo S256x4096 (shapeCast S256x1 (multiReduction .maximumf [1] S256 S 0xFF800000#32 reduces_S256x4096_S256 (.inl rfl) rfl) shapeCasts_S256_S256x1) broadcasts_S256x1_S256x4096)) (ix2 r j)
      = Ideal.exp (S (ix2 r j) - Cert.Attn.rowMax (fun j' => S (ix2 r j'))) := by
  show Ideal.exp (S (ix2 r j) - broadcastTo S256x4096 (shapeCast S256x1 (multiReduction .maximumf [1] S256 S 0xFF800000#32 reduces_S256x4096_S256 (.inl rfl) rfl) shapeCasts_S256_S256x1) broadcasts_S256x1_S256x4096 (ix2 r j)) = _
  rw [column_apply]
  exact congrArg (fun z => Ideal.exp (S (ix2 r j) - z)) (rowMax_apply S _ _ r)

theorem softmaxBlk_apply (S : FVec Ideal S256x4096 .f32) (r : Fin 256) (j : Fin 4096) :
    softmaxBlk S (ix2 r j) = Cert.Attn.softmax (fun j' => S (ix2 r j')) j := by
  unfold softmaxBlk Cert.Attn.softmax
  show Ideal.div (exp (subf S _) (ix2 r j)) (broadcastTo S256x4096 (shapeCast S256x1 _ shapeCasts_S256_S256x1) broadcasts_S256x1_S256x4096 (ix2 r j)) = _
  rw [expBlk_apply, column_apply]
  exact congrArg (Ideal.div _) ((rowSum_apply _ _ _ r).trans (Finset.sum_congr rfl fun k _ => expBlk_apply S r k))

/-- The body's attention block is the softmax of its score matrix. -/
theorem pay2_eq (x0 : Vec Ideal S1x256x128 .f32) (x1 : Vec Ideal S1x4096x128 .bf16) :
    k1_pay2 x0 x1 = softmaxBlk (scoreBlk x0 x1) := rfl

/-- The score row of query row `r` against the key block. -/
abbrev scoreRow (x0 : Vec Ideal S1x256x128 .f32) (x1 : Vec Ideal S1x4096x128 .bf16) (r : Fin 256) : Fin 4096 → EReal :=
  fun j => ∑ d : Fin 128, x0 (ix3 0 r d) * x1 (ix3 0 j d)

theorem pay2_apply (x0 : Vec Ideal S1x256x128 .f32) (x1 : Vec Ideal S1x4096x128 .bf16) (r : Fin 256) (j : Fin 4096) :
    k1_pay2 x0 x1 (ix2 r j) = Cert.Attn.softmax (scoreRow x0 x1 r) j := by
  rw [pay2_eq, softmaxBlk_apply]
  exact congrArg (fun f => Cert.Attn.softmax f j) (funext fun j' => scoreBlk_apply x0 x1 r j')

/-! ## The two stored blocks -/

/-- The stored attention block: the softmax under two leading unit axes. -/
theorem pay3_apply (x0 : Vec Ideal S1x256x128 .f32) (x1 : Vec Ideal S1x4096x128 .bf16) (r : Fin 256) (j : Fin 4096) :
    k1_pay3 x0 x1 (ix4 0 0 r j) = Cert.Attn.softmax (scoreRow x0 x1 r) j := by
  unfold k1_pay3
  refine (shapeCast_apply (k1_pay2 x0 x1) shapeCasts_S256x4096_S1x1x256x4096 (ix4 (0 : Fin 1) (0 : Fin 1) r j) (ix2 r j) ?_).trans (pay2_apply x0 x1 r j)
  rw [Shape.rowMajor_val_two, Shape.rowMajor_val_four]
  show r.val * 4096 + j.val = ((0 * 1 + 0) * 256 + r.val) * 4096 + j.val
  omega

/-- The stored output block: the attention weights times the key block, under one leading unit axis. -/
theorem pay4_apply (x0 : Vec Ideal S1x256x128 .f32) (x1 : Vec Ideal S1x4096x128 .bf16) (r : Fin 256) (d : Fin 128) :
    k1_pay4 x0 x1 (ix3 0 r d) = ∑ j : Fin 4096, Cert.Attn.softmax (scoreRow x0 x1 r) j * x1 (ix3 0 j d) := by
  unfold k1_pay4
  refine (shapeCast_apply _ shapeCasts_S256x128_S1x256x128 (ix3 (0 : Fin 1) r d) (ix2 r d) ?_).trans ?_
  · rw [Shape.rowMajor_val_two, Shape.rowMajor_val_three]
    show r.val * 128 + d.val = (0 * 256 + r.val) * 128 + d.val
    omega
  simp only [matmul]
  rw [Ideal.matmul_constant_zero_apply, ← Equiv.sum_comp (ValueIdx.contrEquiv1 dot_S256x4096_S4096x128_S256x128_1_0_0_1_n_n 4096 rfl rfl).symm]
  refine Finset.sum_congr rfl fun k _ => ?_
  have hk := ValueIdx.contrEquiv1_symm_val dot_S256x4096_S4096x128_S256x128_1_0_0_1_n_n 4096 rfl rfl k
  have el : dot_S256x4096_S4096x128_S256x128_1_0_0_1_n_n.lhsIdx (ix2 r d) ((ValueIdx.contrEquiv1 dot_S256x4096_S4096x128_S256x128_1_0_0_1_n_n 4096 rfl rfl).symm k) = ix2 r k := funext fun a => Fin.ext (by
    match a with
    | ⟨0, _⟩ => exact lhs_av_0 _ _
    | ⟨1, _⟩ => exact (lhs_av_1 _ _).trans hk)
  have er : dot_S256x4096_S4096x128_S256x128_1_0_0_1_n_n.rhsIdx (ix2 r d) ((ValueIdx.contrEquiv1 dot_S256x4096_S4096x128_S256x128_1_0_0_1_n_n 4096 rfl rfl).symm k) = ix2 k d := funext fun a => Fin.ext (by
    match a with
    | ⟨0, _⟩ => exact (rhs_av_0 _ _).trans hk
    | ⟨1, _⟩ => exact rhs_av_1 _ _)
  rw [el, er, keys_apply]
  exact congrArg (· * x1 (ix3 0 k d)) (pay2_apply x0 x1 r k)

end Cert.KernelIdeal.AttnPayload

end
-- ==== Proof.AttnValue.lean ====
/-
  The attention region's two result arrays, read off its grid of 4 × 8 × 4 points.

  Point `(b, h, q)` takes the query block `txt[b, q·256 …, h·128 …]` (256 × 128) and the key block
  `keys[b, ·, h·128 …]` (4096 × 128) of the region's two input arrays, and writes back block `(b, h, q, 0)` of the
  attention array (256 × 4096) and block `(b, q, h)` of the output array (256 × 128). An element of a block sits in its
  array, on every axis, at block index × block size + its coordinate inside the block; the blocks of either result tile
  its array, so every index of the array is written by exactly the point that owns its block.
  When the key array holds the projected visual tokens, what is written at an index is the specification's value there.
-/
import proofs.«421947_j20151986553032_3_alg».proof.Proof.Gen.KernelIdeal.Frame
import proofs.«421947_j20151986553032_3_alg».proof.Proof.AttnPayload
import proofs.«421947_j20151986553032_3_alg».proof.Proof.Spec
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.AttnValue

open Cert.KernelIdeal Cert.KernelIdeal.Gen Cert.KernelIdeal.AttnPayload Cert.Attn

variable (V : (c : Dev nD) → (b : Ref sig .tc) → Buf (Elt Ideal) ((c : Thread nD τ).loc b))
variable (vis : SVis.Idx → EReal) (txt : STxt.Idx → EReal) (w : SW.Idx → EReal)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The projected visual tokens as a 4 × 4096 × 1024 array: what the region's key array holds. -/
def projArr : S4x4096x1024.Idx → EReal :=
  fun i => proj vis w ⟨(i 0).val, (i 0).isLt⟩ ⟨(i 1).val, (i 1).isLt⟩ ⟨(i 2).val, (i 2).isLt⟩

/-- Text row `r` of query block `q`: row `q·256 + r` of the 1024. -/
abbrev row (q : Fin 4) (r : Fin 256) : Fin 1024 := ⟨q.val * 256 + r.val, by have := q.isLt; have := r.isLt; omega⟩

/-! ## The specification at explicit coordinates -/

theorem attn_ix (b : Fin 4) (h : Fin 8) (r : Fin 1024) (j : Fin 4096) :
    attn vis txt w (ix4 b h r j) = softmax (score vis txt w b h r) j := rfl

theorem out_ix (b : Fin 4) (r : Fin 1024) (h : Fin 8) (d : Fin 128) :
    out vis txt w (ix3 b r (col h d)) = outAt vis txt w b r h d := by
  have hh : (⟨(h.val * 128 + d.val) / 128, by omega⟩ : Fin 8) = h := Fin.ext (by show (h.val * 128 + d.val) / 128 = h.val; omega)
  have hd : (⟨(h.val * 128 + d.val) % 128, Nat.mod_lt _ (by decide)⟩ : Fin 128) = d := Fin.ext (by show (h.val * 128 + d.val) % 128 = d.val; omega)
  show outAt vis txt w b r ⟨(h.val * 128 + d.val) / 128, _⟩ ⟨(h.val * 128 + d.val) % 128, _⟩ = _
  rw [hh, hd]

/-! ## The printed index maps, decided once over the grid -/

/-- The four windows' block indices at a point, relative to the attention window's `(b, h, q, 0)`. -/
theorem idx_facts : ∀ t : Fin cfg1.N,
    win1_0.index t (0 : Fin 3) = win1_2.index t (0 : Fin 4) ∧ win1_0.index t (1 : Fin 3) = win1_2.index t (2 : Fin 4) ∧ win1_0.index t (2 : Fin 3) = win1_2.index t (1 : Fin 4)
    ∧ win1_1.index t (0 : Fin 3) = win1_2.index t (0 : Fin 4) ∧ win1_1.index t (1 : Fin 3) = 0 ∧ win1_1.index t (2 : Fin 3) = win1_2.index t (1 : Fin 4)
    ∧ win1_3.index t (0 : Fin 3) = win1_2.index t (0 : Fin 4) ∧ win1_3.index t (1 : Fin 3) = win1_2.index t (2 : Fin 4) ∧ win1_3.index t (2 : Fin 3) = win1_2.index t (1 : Fin 4)
    ∧ win1_2.index t (0 : Fin 4) < 4 ∧ win1_2.index t (1 : Fin 4) < 8 ∧ win1_2.index t (2 : Fin 4) < 4 ∧ win1_2.index t (3 : Fin 4) = 0 :=
  (by decide +kernel : ∀ t : Fin grid1.N, _)

/-- Every `(b, h, q)` is some point's. -/
theorem idx_onto : ∀ (b : Fin 4) (h : Fin 8) (q : Fin 4), ∃ t : Fin cfg1.N, win1_2.index t = ![b.val, h.val, q.val, 0] :=
  (by decide +kernel : ∀ (b : Fin 4) (h : Fin 8) (q : Fin 4), ∃ t : Fin grid1.N, win1_2.index t = ![b.val, h.val, q.val, 0])

/-! ## The input blocks at a point -/

/-- An element of the query block at a point, in the text array. -/
theorem qblk_apply (c : Dev nD) (t : Fin cfg1.N) (r : Fin 256) (d : Fin 128) (k : S4x1024x1024.Idx)
    (hk0 : (k 0).val = win1_0.index t (0 : Fin 3)) (hk1 : (k 1).val = win1_0.index t (1 : Fin 3) * 256 + r.val)
    (hk2 : (k 2).val = win1_0.index t (2 : Fin 3) * 128 + d.val) :
    (iblk1 V c 0 t : Vec Ideal S1x256x128 .f32) (ix3 0 r d) = (V c main_arg1 : S4x1024x1024.Idx → EReal) k := by
  unfold iblk1
  rw [View.read_apply]
  show V c main_arg1 _ = V c main_arg1 k
  congr 1
  funext a
  apply Fin.ext
  match a with
  | ⟨0, _⟩ => show win1_0.index t (0 : Fin 3) * 1 + 1 * 0 = (k 0).val; omega
  | ⟨1, _⟩ => show win1_0.index t (1 : Fin 3) * 256 + 1 * r.val = (k 1).val; omega
  | ⟨2, _⟩ => show win1_0.index t (2 : Fin 3) * 128 + 1 * d.val = (k 2).val; omega

/-- An element of the key block at a point, in the key array. -/
theorem kblk_apply (c : Dev nD) (t : Fin cfg1.N) (j : Fin 4096) (d : Fin 128) (k : S4x4096x1024.Idx)
    (hk0 : (k 0).val = win1_1.index t (0 : Fin 3)) (hk1 : (k 1).val = win1_1.index t (1 : Fin 3) * 4096 + j.val)
    (hk2 : (k 2).val = win1_1.index t (2 : Fin 3) * 128 + d.val) :
    (iblk1 V c 1 t : Vec Ideal S1x4096x128 .bf16) (ix3 0 j d) = (V c main_v4 : S4x4096x1024.Idx → EReal) k := by
  unfold iblk1
  rw [View.read_apply]
  show V c main_v4 _ = V c main_v4 k
  congr 1
  funext a
  apply Fin.ext
  match a with
  | ⟨0, _⟩ => show win1_1.index t (0 : Fin 3) * 1 + 1 * 0 = (k 0).val; omega
  | ⟨1, _⟩ => show win1_1.index t (1 : Fin 3) * 4096 + 1 * j.val = (k 1).val; omega
  | ⟨2, _⟩ => show win1_1.index t (2 : Fin 3) * 128 + 1 * d.val = (k 2).val; omega

/-! ## What one point computes, over blocks known by their elements -/

/-- The score row of the body at query row `r` of point `(b, h, q)` is the specification's at text row `q·256 + r`. -/
theorem scoreRow_eq (x0 : Vec Ideal S1x256x128 .f32) (x1 : Vec Ideal S1x4096x128 .bf16) (b : Fin 4) (h : Fin 8) (q : Fin 4)
    (hx0 : ∀ (r : Fin 256) (d : Fin 128), x0 (ix3 0 r d) = txt (ix3 b (row q r) (col h d)))
    (hx1 : ∀ (j : Fin 4096) (d : Fin 128), x1 (ix3 0 j d) = proj vis w b j (col h d)) (r : Fin 256) :
    scoreRow x0 x1 r = score vis txt w b h (row q r) :=
  funext fun j => Finset.sum_congr rfl fun d _ => by rw [hx0, hx1]

/-- The attention block a point stores, element by element. -/
theorem attn_point (x0 : Vec Ideal S1x256x128 .f32) (x1 : Vec Ideal S1x4096x128 .bf16) (b : Fin 4) (h : Fin 8) (q : Fin 4)
    (hx0 : ∀ (r : Fin 256) (d : Fin 128), x0 (ix3 0 r d) = txt (ix3 b (row q r) (col h d)))
    (hx1 : ∀ (j : Fin 4096) (d : Fin 128), x1 (ix3 0 j d) = proj vis w b j (col h d))
    (y : S1x1x256x4096.Idx) (i : S4x8x1024x4096.Idx) (hi0 : (i 0).val = b.val) (hi1 : (i 1).val = h.val)
    (hi2 : (i 2).val = q.val * 256 + (y 2).val) (hi3 : (i 3).val = (y 3).val) :
    k1_pay3 x0 x1 y = attn vis txt w i := by
  obtain ⟨y0, y1, r, j, rfl⟩ : ∃ (y0 : Fin 1) (y1 : Fin 1) (r : Fin 256) (j : Fin 4096), y = ix4 y0 y1 r j := ⟨y 0, y 1, y 2, y 3, eq_ix4 y⟩
  obtain ⟨ib, ih, ir, ij, rfl⟩ : ∃ (ib : Fin 4) (ih : Fin 8) (ir : Fin 1024) (ij : Fin 4096), i = ix4 ib ih ir ij := ⟨i 0, i 1, i 2, i 3, eq_ix4 i⟩
  obtain rfl : y0 = 0 := Subsingleton.elim _ _
  obtain rfl : y1 = 0 := Subsingleton.elim _ _
  obtain rfl : ib = b := Fin.ext hi0
  obtain rfl : ih = h := Fin.ext hi1
  obtain rfl : ir = (row q r) := Fin.ext hi2
  obtain rfl : ij = j := Fin.ext hi3
  rw [pay3_apply, attn_ix, scoreRow_eq vis txt w x0 x1 ib ih q hx0 hx1 r]

/-- The output block a point stores, element by element. -/
theorem out_point (x0 : Vec Ideal S1x256x128 .f32) (x1 : Vec Ideal S1x4096x128 .bf16) (b : Fin 4) (h : Fin 8) (q : Fin 4)
    (hx0 : ∀ (r : Fin 256) (d : Fin 128), x0 (ix3 0 r d) = txt (ix3 b (row q r) (col h d)))
    (hx1 : ∀ (j : Fin 4096) (d : Fin 128), x1 (ix3 0 j d) = proj vis w b j (col h d))
    (y : S1x256x128.Idx) (i : S4x1024x1024.Idx) (hi0 : (i 0).val = b.val) (hi1 : (i 1).val = q.val * 256 + (y 1).val)
    (hi2 : (i 2).val = h.val * 128 + (y 2).val) :
    k1_pay4 x0 x1 y = out vis txt w i := by
  obtain ⟨y0, r, d, rfl⟩ : ∃ (y0 : Fin 1) (r : Fin 256) (d : Fin 128), y = ix3 y0 r d := ⟨y 0, y 1, y 2, eq_ix3 y⟩
  obtain ⟨ib, ir, it, rfl⟩ : ∃ (ib : Fin 4) (ir : Fin 1024) (it : Fin 1024), i = ix3 ib ir it := ⟨i 0, i 1, i 2, eq_ix3 i⟩
  obtain rfl : y0 = 0 := Subsingleton.elim _ _
  obtain rfl : ib = b := Fin.ext hi0
  obtain rfl : ir = (row q r) := Fin.ext hi1
  obtain rfl : it = col h d := Fin.ext hi2
  rw [pay4_apply, out_ix, scoreRow_eq vis txt w x0 x1 ib h q hx0 hx1 r]
  exact Finset.sum_congr rfl fun j _ => by rw [hx1]

/-! ## From the points' blocks to the arrays -/

section Arrays

variable (c : Dev nD) (hq : (V c main_arg1 : S4x1024x1024.Idx → EReal) = txt)
  (hk : (V c main_v4 : S4x4096x1024.Idx → EReal) = projArr vis w)
include hq hk

/-- The two input blocks of the point whose attention block has index `(b, h, q, 0)`, element by element. -/
theorem point_blocks (t : Fin cfg1.N) (b : Fin 4) (h : Fin 8) (q : Fin 4)
    (hb : win1_2.index t (0 : Fin 4) = b.val) (hh : win1_2.index t (1 : Fin 4) = h.val) (hqq : win1_2.index t (2 : Fin 4) = q.val) :
    (∀ (r : Fin 256) (d : Fin 128), (iblk1 V c 0 t : Vec Ideal S1x256x128 .f32) (ix3 0 r d) = txt (ix3 b (row q r) (col h d)))
    ∧ (∀ (j : Fin 4096) (d : Fin 128), (iblk1 V c 1 t : Vec Ideal S1x4096x128 .bf16) (ix3 0 j d) = proj vis w b j (col h d)) := by
  obtain ⟨e00, e01, e02, e10, e11, e12, -, -, -, -, -, -, -⟩ := idx_facts t
  refine ⟨fun r d => ?_, fun j d => ?_⟩
  · rw [qblk_apply V c t r d (ix3 b (row q r) (col h d)) (by show b.val = _; omega) (by show q.val * 256 + r.val = _; omega)
      (by show h.val * 128 + d.val = _; omega), hq]
  · rw [kblk_apply V c t j d (ix3 b j (col h d)) (by show b.val = _; omega) (by show j.val = _; omega)
      (by show h.val * 128 + d.val = _; omega), hk]
    rfl

/-- What a point writes back to the attention array is its block of the specification's attention weights. -/
theorem flushed2_eq (t : Fin cfg1.N) :
    (dat1 V c).flushed 2 t = ((cfg1.win 2).blk t).view.read (Elt Ideal) (attn vis txt w) := by
  show (cfg1.win 2).cut (grid1.coords t) ((dat1 V c).after 2 t) = _
  rw [after1_2]
  unfold out1_2
  rw [View.canon_unit_zero hz4]
  simp only [View.ld_unit_zero (S := S1x256x128) hz3, View.ld_unit_zero (S := S1x4096x128) hz3]
  funext y
  obtain ⟨-, -, -, -, -, -, -, -, -, lb, lh, lq, e23⟩ := idx_facts t
  obtain ⟨hx0, hx1⟩ := point_blocks V vis txt w c hq hk t ⟨_, lb⟩ ⟨_, lh⟩ ⟨_, lq⟩ rfl rfl rfl
  show k1_pay3 (iblk1 V c 0 t) (iblk1 V c 1 t) y = attn vis txt w (((cfg1.win 2).blk t).view.emb y)
  have h0 : (y 0).val < 1 := (y 0).isLt
  have h1 : (y 1).val < 1 := (y 1).isLt
  refine attn_point vis txt w _ _ _ _ _ hx0 hx1 y _ ?_ ?_ ?_ ?_
  · show win1_2.index t (0 : Fin 4) * 1 + 1 * (y 0).val = win1_2.index t (0 : Fin 4); omega
  · show win1_2.index t (1 : Fin 4) * 1 + 1 * (y 1).val = win1_2.index t (1 : Fin 4); omega
  · show win1_2.index t (2 : Fin 4) * 256 + 1 * (y 2).val = win1_2.index t (2 : Fin 4) * 256 + (y 2).val; omega
  · show win1_2.index t (3 : Fin 4) * 4096 + 1 * (y 3).val = (y 3).val; omega

/-- What a point writes back to the output array is its block of the specification's attention output. -/
theorem flushed3_eq (t : Fin cfg1.N) :
    (dat1 V c).flushed 3 t = ((cfg1.win 3).blk t).view.read (Elt Ideal) (out vis txt w) := by
  show (cfg1.win 3).cut (grid1.coords t) ((dat1 V c).after 3 t) = _
  rw [after1_3]
  unfold out1_3
  rw [View.canon_unit_zero hz3]
  simp only [View.ld_unit_zero (S := S1x256x128) hz3, View.ld_unit_zero (S := S1x4096x128) hz3]
  funext y
  obtain ⟨-, -, -, -, -, -, e30, e31, e32, lb, lh, lq, -⟩ := idx_facts t
  obtain ⟨hx0, hx1⟩ := point_blocks V vis txt w c hq hk t ⟨_, lb⟩ ⟨_, lh⟩ ⟨_, lq⟩ rfl rfl rfl
  show k1_pay4 (iblk1 V c 0 t) (iblk1 V c 1 t) y = out vis txt w (((cfg1.win 3).blk t).view.emb y)
  have h0 : (y 0).val < 1 := (y 0).isLt
  refine out_point vis txt w _ _ _ _ _ hx0 hx1 y _ ?_ ?_ ?_
  · show win1_3.index t (0 : Fin 3) * 1 + 1 * (y 0).val = win1_2.index t (0 : Fin 4); omega
  · show win1_3.index t (1 : Fin 3) * 256 + 1 * (y 1).val = win1_2.index t (2 : Fin 4) * 256 + (y 1).val; omega
  · show win1_3.index t (2 : Fin 3) * 128 + 1 * (y 2).val = win1_2.index t (1 : Fin 4) * 128 + (y 2).val; omega

omit hq hk in
/-- An index of the attention array is in a point's block iff each coordinate is in the block's range on its axis. -/
theorem mem_blk2 (t : Fin cfg1.N) (i : S4x8x1024x4096.Idx) :
    i ∈ ((cfg1.win 2).blk t).view.set ↔ ∀ a : Fin 4, win1_2.index t a * S1x1x256x4096.size a ≤ (i a).val ∧ (i a).val < win1_2.index t a * S1x1x256x4096.size a + S1x1x256x4096.size a := by
  show i ∈ ((View.whole main_v5_0).slice (win1_2.rect t)).set ↔ _
  rw [View.set_slice_whole, Rect.mem_set_unit]
  exact Iff.rfl

omit hq hk in
/-- The same for the output array. -/
theorem mem_blk3 (t : Fin cfg1.N) (i : S4x1024x1024.Idx) :
    i ∈ ((cfg1.win 3).blk t).view.set ↔ ∀ a : Fin 3, win1_3.index t a * S1x256x128.size a ≤ (i a).val ∧ (i a).val < win1_3.index t a * S1x256x128.size a + S1x256x128.size a := by
  show i ∈ ((View.whole main_v5_1).slice (win1_3.rect t)).set ↔ _
  rw [View.set_slice_whole, Rect.mem_set_unit]
  exact Iff.rfl

omit hq hk in
/-- Every index of the attention array lies in the block of the point `(i₀, i₁, i₂ / 256)`. -/
theorem cover2 (i : S4x8x1024x4096.Idx) : ∃ t : Fin cfg1.N, (cfg1.win 2).flush t = true ∧ i ∈ ((cfg1.win 2).blk t).view.set := by
  have hi0 : (i 0).val < 4 := (i 0).isLt
  have hi1 : (i 1).val < 8 := (i 1).isLt
  have hi2 : (i 2).val < 1024 := (i 2).isLt
  have hi3 : (i 3).val < 4096 := (i 3).isLt
  obtain ⟨t, ht⟩ := idx_onto ⟨(i 0).val, hi0⟩ ⟨(i 1).val, hi1⟩ ⟨(i 2).val / 256, by omega⟩
  have q0 : win1_2.index t (0 : Fin 4) = (i 0).val := congrFun ht 0
  have q1 : win1_2.index t (1 : Fin 4) = (i 1).val := congrFun ht 1
  have q2 : win1_2.index t (2 : Fin 4) = (i 2).val / 256 := congrFun ht 2
  have q3 : win1_2.index t (3 : Fin 4) = 0 := congrFun ht 3
  refine ⟨t, flush1_2 t, ?_⟩
  rw [mem_blk2]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 1 ≤ (i 1).val ∧ (i 1).val < win1_2.index t (1 : Fin 4) * 1 + 1; omega
  | ⟨2, _⟩ => show win1_2.index t (2 : Fin 4) * 256 ≤ (i 2).val ∧ (i 2).val < win1_2.index t (2 : Fin 4) * 256 + 256; omega
  | ⟨3, _⟩ => show win1_2.index t (3 : Fin 4) * 4096 ≤ (i 3).val ∧ (i 3).val < win1_2.index t (3 : Fin 4) * 4096 + 4096; omega

omit hq hk in
/-- Every index of the output array lies in the block of the point `(i₀, i₂ / 128, i₁ / 256)`. -/
theorem cover3 (i : S4x1024x1024.Idx) : ∃ t : Fin cfg1.N, (cfg1.win 3).flush t = true ∧ i ∈ ((cfg1.win 3).blk t).view.set := by
  have hi0 : (i 0).val < 4 := (i 0).isLt
  have hi1 : (i 1).val < 1024 := (i 1).isLt
  have hi2 : (i 2).val < 1024 := (i 2).isLt
  obtain ⟨t, ht⟩ := idx_onto ⟨(i 0).val, hi0⟩ ⟨(i 2).val / 128, by omega⟩ ⟨(i 1).val / 256, by omega⟩
  have q0 : win1_2.index t (0 : Fin 4) = (i 0).val := congrFun ht 0
  have q1 : win1_2.index t (1 : Fin 4) = (i 2).val / 128 := congrFun ht 1
  have q2 : win1_2.index t (2 : Fin 4) = (i 1).val / 256 := congrFun ht 2
  obtain ⟨-, -, -, -, -, -, e30, e31, e32, -, -, -, -⟩ := idx_facts t
  refine ⟨t, flush1_3 t, ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 128 ≤ (i 2).val ∧ (i 2).val < win1_3.index t (2 : Fin 3) * 128 + 128; omega

/-- After the region the attention array holds the specification's attention weights. -/
theorem attn_final : (dat1 V c).arrAt 2 cfg1.N = attn vis txt w :=
  (dat1 V c).arrAt_eq_of_cover 2 (attn vis txt w) (fun t _ => flushed2_eq V vis txt w c hq hk t) cover2

/-- After the region the output array holds the specification's attention output. -/
theorem out_final : (dat1 V c).arrAt 3 cfg1.N = out vis txt w :=
  (dat1 V c).arrAt_eq_of_cover 3 (out vis txt w) (fun t _ => flushed3_eq V vis txt w c hq hk t) cover3

end Arrays

end Cert.KernelIdeal.AttnValue

end
-- ==== Proof.ProjValue.lean ====
/-
  The kernel's first region and the host operations before it: the projected visual tokens as one array.

  Before the region the host transposes the projection matrix `w[t, v]` into `wT[v, t]` (and narrows it, the identity on the
  extended reals) and merges the batch and position axes of the visual tokens `vis[b, n, v]` into one row axis,
  `x[r, v] = vis[r / 4096, r % 4096, v]` for `r < 16384`. The region runs over sixteen points; point `t` reads rows
  `t·1024 … t·1024 + 1023` of `x` and the whole of `wT`, and writes the same rows of the result, each entry
  `Σ_v x[r, v] · wT[v, q]`. The sixteen row blocks tile the result, so after the region the result array is
  `y[r, q] = Σ_v vis[r / 4096, r % 4096, v] · w[q, v]`, the projection of the specification at batch `r / 4096`, position
  `r % 4096` and feature `q`.
-/
import proofs.«421947_j20151986553032_3_alg».proof.Proof.Gen.KernelIdeal.Frame
import proofs.«421947_j20151986553032_3_alg».proof.Proof.Spec
import Idealize.ShloMosaic.Lib.Pipeline.Value
import Idealize.ShloMosaic.Lib.ValueIdx
import Idealize.ShloMosaic.PureOps.Ideal.Laws
set_option maxRecDepth 16384
noncomputable section
open Idealize.ShloMosaic Idealize.ShloMosaic.TcCoe Idealize.SL.Sem
namespace Cert.KernelIdeal.ProjValue
open Cert.KernelIdeal Cert.KernelIdeal.Gen
open Idealize.ShloMosaic.Pipeline (Dat)
variable (m : (ℓ : Loc nD τ sig) → Buf (Elt Ideal) ℓ) (ρ : Dev nD → PrngReg)

/-! ## The two arrays the region reads, at an index -/

/-- The left array as the region finds it: the visual tokens with batch and position merged into one row axis. -/
theorem entry_v2 (c : Dev nD) :
    (V1 m ρ c main_v2 : S16384x1024.Idx → EReal) =
      shapeCast S16384x1024 (m ((c : Thread nD τ).loc main_arg0) : S4x4096x1024.Idx → EReal) shapeCasts_S4x4096x1024_S16384x1024 := by
  show StableHlo.after hostOps0 _ (Proc.devRef .tc main_v2) = _
  after_results
  rfl

/-- The right array as the region finds it: the projection matrix transposed (the narrowing is the identity on the
    extended reals). -/
theorem entry_v1 (c : Dev nD) :
    (V1 m ρ c main_v1 : S1024x1024.Idx → EReal) =
      (truncf (F := Ideal) .bf16 (transpose S1024x1024 [1, 0] (m ((c : Thread nD τ).loc main_arg2) : FVec Ideal S1024x1024 .f32) transposes_S1024x1024_S1024x1024_1_0) bitsLt_bf16_f32 : FVec Ideal S1024x1024 .bf16) := by
  show StableHlo.after hostOps0 _ (Proc.devRef .tc main_v1) = _
  after_results

/-- Row `r` of the merged array is position `r % 4096` of batch `r / 4096`. -/
theorem entry_v2_apply (c : Dev nD) (r : Fin 16384) (v : Fin 1024) :
    (V1 m ρ c main_v2 : S16384x1024.Idx → EReal) (ValueIdx.ix2 r v)
      = (m ((c : Thread nD τ).loc main_arg0) : S4x4096x1024.Idx → EReal)
          (ValueIdx.ix3 ⟨r.val / 4096, by have h := r.isLt; omega⟩ ⟨r.val % 4096, Nat.mod_lt _ (by decide)⟩ v) := by
  rw [entry_v2]
  exact shapeCast_apply _ shapeCasts_S4x4096x1024_S16384x1024 _ _
    (by rewrite [Shape.rowMajor_val_three, Shape.rowMajor_val_two]
        have h := r.isLt
        show (r.val / 4096 * 4096 + r.val % 4096) * 1024 + v.val = r.val * 1024 + v.val
        omega)

/-- The transposed matrix at `(v, t)` is the matrix at `(t, v)`. -/
theorem entry_v1_apply (c : Dev nD) (v t : Fin 1024) :
    (V1 m ρ c main_v1 : S1024x1024.Idx → EReal) (ValueIdx.ix2 v t)
      = (m ((c : Thread nD τ).loc main_arg2) : S1024x1024.Idx → EReal) (ValueIdx.ix2 t v) := by
  rw [entry_v1]
  show transpose S1024x1024 [1, 0] (m ((c : Thread nD τ).loc main_arg2) : S1024x1024.Idx → EReal) transposes_S1024x1024_S1024x1024_1_0 (ValueIdx.ix2 v t) = _
  exact transpose_apply [1, 0] _ transposes_S1024x1024_S1024x1024_1_0 _ _ (fun b => match b with
    | ⟨0, _⟩ => rfl
    | ⟨1, _⟩ => rfl)

/-! ## The body's payload at an index -/

/-- The product contracts the left operand's second axis against the right operand's first: at result index `i` and
    contraction index `q` the left operand is read at `(i 0, q)` and the right at `(q, i 1)`. The four coordinates: -/
theorem lhs_axis0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_axis1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_axis0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_axis1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The body's payload at `(p, q)`: the narrowings and the trivial shape casts are identities on the extended reals, and the
    product onto the zero accumulator is the sum over `v` of the left block at `(p, v)` times the right block at `(v, q)`. -/
theorem pay_apply (x0 : Vec Ideal S1024x1024 .f32) (x1 : Vec Ideal S1024x1024 .bf16) (p q : Fin 1024) :
    (k0_pay1 x0 x1 : S1024x1024.Idx → EReal) (ValueIdx.ix2 p q)
      = ∑ v : Fin 1024, (x0 (ValueIdx.ix2 p v) : EReal) * (x1 (ValueIdx.ix2 v q) : EReal) := by
  unfold k0_pay1
  rw [shapeCast_self, shapeCast_self]
  show FloatOps.matmul (F := Ideal) (φ₁ := .bf16) (φ₂ := .bf16) dot_S1024x1024_S1024x1024_S1024x1024_1_0_0_1_n_n none x0 x1 (constant S1024x1024 .f32 0x00000000#32) (ValueIdx.ix2 p q) = _
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ValueIdx.ix2 p q) ((ValueIdx.contrEquiv1 dot_S1024x1024_S1024x1024_S1024x1024_1_0_0_1_n_n 1024 rfl rfl).symm k) = ValueIdx.ix2 p k := funext fun a => Fin.ext (by
    match a with
    | ⟨0, _⟩ => exact lhs_axis0 _ _
    | ⟨1, _⟩ => exact (lhs_axis1 _ _).trans hk)
  have er : dot_S1024x1024_S1024x1024_S1024x1024_1_0_0_1_n_n.rhsIdx (ValueIdx.ix2 p q) ((ValueIdx.contrEquiv1 dot_S1024x1024_S1024x1024_S1024x1024_1_0_0_1_n_n 1024 rfl rfl).symm k) = ValueIdx.ix2 k q := funext fun a => Fin.ext (by
    match a with
    | ⟨0, _⟩ => exact (rhs_axis0 _ _).trans hk
    | ⟨1, _⟩ => exact rhs_axis1 _ _)
  rw [el, er]

/-! ## From the blocks to the array -/

/-- The body's one load and one store per window start at the block's origin. -/
theorem hz : (![0, 0] : Fin 2 → Nat) = fun _ => 0 := funext fun a => by fin_cases a <;> rfl

/-- The projected array as one function of the two arrays the region reads: row `r`, column `q` is the sum over `v` of
    the left array at `(r, v)` times the right array at `(v, q)`. -/
abbrev G (A : S16384x1024.Idx → Elt Ideal .f32) (B : S1024x1024.Idx → Elt Ideal .bf16) : S16384x1024.Idx → Elt Ideal .bf16 :=
  fun i => ∑ v : Fin 1024, (A (ValueIdx.ix2 ⟨(i 0).val, ValueIdx.idx2_lt0 i⟩ v) : EReal) * (B (ValueIdx.ix2 v ⟨(i 1).val, ValueIdx.idx2_lt1 i⟩) : EReal)

/-- The payload at an index of its block, the index given by its two coordinates. -/
theorem pay_block (x0 : Vec Ideal S1024x1024 .f32) (x1 : Vec Ideal S1024x1024 .bf16) (j : S1024x1024.Idx) :
    (k0_pay1 x0 x1 : S1024x1024.Idx → EReal) j
      = ∑ v : Fin 1024, (x0 (ValueIdx.ix2 (j 0) v) : EReal) * (x1 (ValueIdx.ix2 v (j 1)) : EReal) :=
  (congrArg (k0_pay1 x0 x1 : S1024x1024.Idx → EReal) (ValueIdx.eq_ix2 j)).trans (pay_apply x0 x1 (j 0) (j 1))

/-- The index maps, decided over the sixteen points: the left window's block row is the output's and is the point's
    number, every other block coordinate is zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point `t` writes back is block `t` of `G` of the two arrays as the region finds them: an entry of the block at
    `(p, q)` is the sum over `v` of the left block at `(p, v)` times the right block at `(v, q)`; the left block's rows are the
    output block's rows and its columns are all the columns, the right block is the whole right array. -/
theorem flushed_eq (c : Dev nD) (t : Fin cfg0.N) :
    (dat0 (V1 m ρ) c).flushed 2 t = ((cfg0.win 2).blk t).view.read (Elt Ideal) (G (V1 m ρ c main_v2) (V1 m ρ c main_v1)) := by
  show (cfg0.win 2).cut (grid0.coords t) ((dat0 (V1 m ρ) c).after 2 t) = _
  rw [after0_2]
  unfold out0_2
  rw [View.canon_unit_zero hz]
  simp only [View.ld_unit_zero (S := S1024x1024) hz]
  obtain ⟨e0, e1, e2, e3, e4, e5⟩ := idx_facts t
  funext j
  show (k0_pay1 (iblk0 (V1 m ρ) c 0 t) (iblk0 (V1 m ρ) c 1 t) : S1024x1024.Idx → EReal) j = G (V1 m ρ c main_v2) (V1 m ρ c main_v1) (((cfg0.win 2).blk t).view.emb j)
  refine (pay_block (iblk0 (V1 m ρ) c 0 t) (iblk0 (V1 m ρ) c 1 t) j).trans ?_
  refine Finset.sum_congr rfl fun v _ => ?_
  refine congrArg₂ (· * ·) (congrArg (V1 m ρ c main_v2 : S16384x1024.Idx → EReal) ?_) (congrArg (V1 m ρ c main_v1 : S1024x1024.Idx → EReal) ?_)
  · funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * v.val = v.val; omega
  · funext a; apply Fin.ext
    match a with
    | ⟨0, _⟩ => show win0_1.index t (0 : Fin 2) * 1024 + 1 * v.val = v.val; omega
    | ⟨1, _⟩ => show win0_1.index t (1 : Fin 2) * 1024 + 1 * (j 1).val = win0_2.index t (1 : Fin 2) * 1024 + 1 * (j 1).val; omega

/-- An index of the array lies in point `t`'s block iff each coordinate lies in the block's range on its axis. -/
theorem mem_blk (t : Fin cfg0.N) (i : S16384x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v3).slice (win0_2.rect t)).set ↔ _
  rw [View.set_slice_whole, Rect.mem_set_unit]
  exact Iff.rfl

/-- The sixteen row blocks tile the array: row `r` lies in the block of point `r / 1024`. -/
theorem cover (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  have ht : (i 0).val / 1024 < cfg0.N := by show (i 0).val / 1024 < grid0.N; rw [N_0]; omega
  obtain ⟨e0, e1, e2, e3, e4, e5⟩ := idx_facts ⟨(i 0).val / 1024, ht⟩
  refine ⟨⟨(i 0).val / 1024, ht⟩, flush0_2 _, ?_⟩
  rw [mem_blk]
  intro a
  match a with
  | ⟨0, _⟩ =>
    show win0_2.index ⟨(i 0).val / 1024, ht⟩ (0 : Fin 2) * 1024 ≤ (i 0).val ∧ (i 0).val < win0_2.index ⟨(i 0).val / 1024, ht⟩ (0 : Fin 2) * 1024 + 1024
    rw [e5]
    show (i 0).val / 1024 * 1024 ≤ (i 0).val ∧ (i 0).val < (i 0).val / 1024 * 1024 + 1024
    omega
  | ⟨1, _⟩ =>
    show win0_2.index ⟨(i 0).val / 1024, ht⟩ (1 : Fin 2) * 1024 ≤ (i 1).val ∧ (i 1).val < win0_2.index ⟨(i 0).val / 1024, ht⟩ (1 : Fin 2) * 1024 + 1024
    rw [e4]
    omega

/-- The region leaves the whole projected array: every point writes its row block of `G`, and the blocks cover the array. -/
theorem arr_eq (c : Dev nD) : (dat0 (V1 m ρ) c).arrAt 2 cfg0.N = G (V1 m ρ c main_v2) (V1 m ρ c main_v1) :=
  (dat0 (V1 m ρ) c).arrAt_eq_of_cover 2 _ (fun t _ => flushed_eq m ρ c t) cover

/-- After the region the result array is the projection of the specification: row `r` is position `r % 4096` of batch
    `r / 4096`, and the transposed matrix at `(v, q)` is the matrix at `(q, v)`. -/
theorem proj_array (c : Dev nD) :
    W2 m ρ c (Proc.devRef .tc main_v3) = fun i : S16384x1024.Idx =>
      Cert.Attn.proj (m ((c : Thread nD τ).loc main_arg0)) (m ((c : Thread nD τ).loc main_arg2))
        ⟨(i 0).val / 4096, by have h : (i 0).val < 16384 := (i 0).isLt; omega⟩ ⟨(i 0).val % 4096, Nat.mod_lt _ (by decide)⟩ ⟨(i 1).val, (i 1).isLt⟩ := by
  refine ((W2_arr m ρ c 2).trans (arr_eq m ρ c)).trans ?_
  funext i
  unfold Cert.Attn.proj
  refine Finset.sum_congr rfl fun v _ => ?_
  exact congrArg₂ (· * ·) (entry_v2_apply m ρ c ⟨(i 0).val, ValueIdx.idx2_lt0 i⟩ v) (entry_v1_apply m ρ c v ⟨(i 1).val, ValueIdx.idx2_lt1 i⟩)

end Cert.KernelIdeal.ProjValue
end
-- ==== Proof.KernelValue.lean ====
/-
  The idealized kernel program's run, with its two results named by the specification.

  Between the two regions the only host operation is the reshape of the projected tokens from 16384 × 1024 back to
  4 × 4096 × 1024: row `b·4096 + n` of the first is row `n` of batch `b` of the second. So the attention region finds,
  in its key array, the specification's projected visual tokens, and, in its query array, the text argument as
  launched (nothing before it writes that buffer); its two result arrays are then the specification's attention
  weights and attention output of the three arguments.
-/
import proofs.«421947_j20151986553032_3_alg».proof.Proof.Gen.KernelIdeal.Frame
import proofs.«421947_j20151986553032_3_alg».proof.Proof.KernelIdealRun
import proofs.«421947_j20151986553032_3_alg».proof.Proof.AttnValue
import proofs.«421947_j20151986553032_3_alg».proof.Proof.ProjValue
import proofs.«421947_j20151986553032_3_alg».proof.Proof.Spec
import Idealize.ShloMosaic.Lib.Pipeline.Value
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelIdeal.KernelValue

open Cert.KernelIdeal Cert.KernelIdeal.Gen

variable (m : (ℓ : Loc nD τ sig) → Buf (Elt Ideal) ℓ) (ρ : Dev nD → PrngReg)

/-- The attention region finds the text argument as launched. -/
theorem entry_text (c : Dev nD) : V3 m ρ c main_arg1 = m ((c : Thread nD τ).loc main_arg1) :=
  ((W4_arr m ρ c 0).trans (((dat1 (V3 m ρ) c).arrAt_in 0 rfl _).trans (A_eq1 (V3 m ρ) c 0))).symm.trans (W4_main_arg1 m ρ c)

/-- Its key array is the reshape of what the projection region left. -/
theorem entry_keys_cast (c : Dev nD) : (V3 m ρ c main_v4 : S4x4096x1024.Idx → EReal)
    = shapeCast S4x4096x1024 (W2 m ρ c (Proc.devRef .tc main_v3) : S16384x1024.Idx → EReal) shapeCasts_S16384x1024_S4x4096x1024 := by
  show StableHlo.after hostOps1 (W2 m ρ c) (Proc.devRef .tc main_v4) = _
  after_results
  rfl

/-- So its key array holds the projected visual tokens. -/
theorem entry_keys (c : Dev nD) : (V3 m ρ c main_v4 : S4x4096x1024.Idx → EReal)
    = AttnValue.projArr (m ((c : Thread nD τ).loc main_arg0)) (m ((c : Thread nD τ).loc main_arg2)) := by
  rw [entry_keys_cast, ProjValue.proj_array]
  funext i
  obtain ⟨b, n, t, rfl⟩ : ∃ (b : Fin 4) (n : Fin 4096) (t : Fin 1024), i = ix3 b n t := ⟨i 0, i 1, i 2, eq_ix3 i⟩
  have hlt : b.val * 4096 + n.val < 16384 := by have := b.isLt; have := n.isLt; omega
  refine (shapeCast_apply _ shapeCasts_S16384x1024_S4x4096x1024 (ix3 b n t) (ix2 ⟨b.val * 4096 + n.val, hlt⟩ t) ?_).trans ?_
  · rw [Shape.rowMajor_val_two, Shape.rowMajor_val_three]
    show (b.val * 4096 + n.val) * 1024 + t.val = (b.val * 4096 + n.val) * 1024 + t.val
    rfl
  · have hb : (⟨(b.val * 4096 + n.val) / 4096, by omega⟩ : Fin 4) = b := Fin.ext (by show (b.val * 4096 + n.val) / 4096 = b.val; have := n.isLt; omega)
    have hn : (⟨(b.val * 4096 + n.val) % 4096, Nat.mod_lt _ (by decide)⟩ : Fin 4096) = n := Fin.ext (by show (b.val * 4096 + n.val) % 4096 = n.val; have := n.isLt; omega)
    show Cert.Attn.proj _ _ ⟨(b.val * 4096 + n.val) / 4096, _⟩ ⟨(b.val * 4096 + n.val) % 4096, _⟩ ⟨t.val, _⟩ = Cert.Attn.proj _ _ b n t
    rw [hb, hn]

/-- Every weakly fair execution of the idealized kernel program terminates with the output and the attention weights
    at the specification's values of the launch arguments, the arguments unchanged. -/
theorem run : θ_run defs (onTc (τ := τ) (main (F := Ideal))) ⟨m, fun _ => 0, ρ⟩ (fun r => ∀ c : Dev nD,
      r.2.mem ((c.tc : Thread nD τ).loc main_v5_1) = Cert.Attn.out (m ((c.tc : Thread nD τ).loc main_arg0)) (m ((c.tc : Thread nD τ).loc main_arg1)) (m ((c.tc : Thread nD τ).loc main_arg2))
      ∧ r.2.mem ((c.tc : Thread nD τ).loc main_v5_0) = Cert.Attn.attn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c).1.trans ((W4_arr m ρ c 3).trans (AttnValue.out_final (V3 m ρ) _ _ _ c (entry_text m ρ c) (entry_keys m ρ c))),
       (h c).2.1.trans ((W4_arr m ρ c 2).trans (AttnValue.attn_final (V3 m ρ) _ _ _ c (entry_text m ρ c) (entry_keys m ρ c))),
       (h c).2.2⟩)
    (GenRun.run_named m ρ)

end Cert.KernelIdeal.KernelValue

end
-- ==== Proof.lean ====
/-
  The certificate of the cross-attention kernel against its jnp reference.

  Both programs project the visual tokens by the matrix `W` (`proj[b, n, t] = Σ_v vis[b, n, v] · W[t, v]`), split the 1024
  feature columns into eight heads of 128, score every text row against every projected row of its batch and head,
  take the softmax of each score row over the 4096 visual positions, and return the attention weights together with
  their product with the projected rows (keys and values are the same array). The kernel does this in two grid regions
  (a row-blocked matrix product; then one point per batch, head and block of 256 text rows) with narrowing casts to
  bf16 in between, which are the identity on the extended reals; the reference in one sequence of whole-array
  operations with transposes. Read at an index, both results are the same sums of the same products, the same maxima and
  the same quotients, so they agree on every extended-real input: no law that would need finite inputs is used.
  The frames: the two kernel programs' are the generated frame certificates, the reference's is its generated run
  with the results dropped; the idealization rewrote nothing, so `preserves` is trivial.
-/
import proofs.«421947_j20151986553032_3_alg».proof.Defs
import proofs.«421947_j20151986553032_3_alg».proof.Proof.Gen.Kernel
import proofs.«421947_j20151986553032_3_alg».proof.Proof.Gen.Kernel.Skeleton
import proofs.«421947_j20151986553032_3_alg».proof.Proof.Gen.Kernel.Launch
import proofs.«421947_j20151986553032_3_alg».proof.Proof.Gen.Kernel.Points
import proofs.«421947_j20151986553032_3_alg».proof.Proof.Gen.Kernel.Frame
import proofs.«421947_j20151986553032_3_alg».proof.Proof.Gen.KernelIdeal
import proofs.«421947_j20151986553032_3_alg».proof.Proof.Gen.KernelIdeal.Skeleton
import proofs.«421947_j20151986553032_3_alg».proof.Proof.Gen.KernelIdeal.Launch
import proofs.«421947_j20151986553032_3_alg».proof.Proof.Gen.KernelIdeal.Points
import proofs.«421947_j20151986553032_3_alg».proof.Proof.Gen.KernelIdeal.Frame
import proofs.«421947_j20151986553032_3_alg».proof.Proof.Gen.ReferenceIdeal
import proofs.«421947_j20151986553032_3_alg».proof.Proof.Gen.Pre_finite_inputs
import proofs.«421947_j20151986553032_3_alg».proof.Proof.Gen.ReferenceIdeal.Run
import proofs.«421947_j20151986553032_3_alg».proof.Proof.Gen.ReferenceIdeal.Read
import proofs.«421947_j20151986553032_3_alg».proof.Proof.Spec
import proofs.«421947_j20151986553032_3_alg».proof.Proof.RefValue
import proofs.«421947_j20151986553032_3_alg».proof.Proof.KernelValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the three arguments both idealized programs end with the specification's attention
    output and attention weights of those arguments. -/
theorem algebraic : Cert.algebraic_KernelIdeal_ReferenceIdeal := by
  intro m ρ m' ρ' _ hagree
  refine ⟨fun c => Cert.Attn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Attn.attn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v19_eq _ _ _).trans ((Cert.RefValue.ref_out _ _ _).trans ?_)
    rw [(hagree c).1, (hagree c).2.1, (hagree c).2.2]
  · refine (Cert.ReferenceIdeal.Read.val_main_v16_eq _ _ _).trans ((Cert.RefValue.ref_attn _ _ _).trans ?_)
    rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
